-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v79)) (v1 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x133 : Shape := ⟨2, ![50000, 133]⟩
abbrev S2x800000 : Shape := ⟨2, ![2, 800000]⟩
abbrev S800000 : Shape := ⟨1, ![800000]⟩
abbrev S800000x14 : Shape := ⟨2, ![800000, 14]⟩
abbrev S50000 : Shape := ⟨1, ![50000]⟩
abbrev S147x128 : Shape := ⟨2, ![147, 128]⟩
abbrev S128x128 : Shape := ⟨2, ![128, 128]⟩
abbrev S261x128 : Shape := ⟨2, ![261, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x133 : S_.BroadcastsInDim S50000x133 (![] : Fin 0 → Fin S50000x133.rank)
  reducesTo_S50000x133_S_d0_1 : S50000x133.ReducesTo [0, 1] S_
  h_S_ : 0 < S_.numel
  bcast_S_S800000x14 : S_.BroadcastsInDim S800000x14 (![] : Fin 0 → Fin S800000x14.rank)
  reducesTo_S800000x14_S_d0_1 : S800000x14.ReducesTo [0, 1] S_
  bcast_S_S147x128 : S_.BroadcastsInDim S147x128 (![] : Fin 0 → Fin S147x128.rank)
  reducesTo_S147x128_S_d0_1 : S147x128.ReducesTo [0, 1] S_
  bcast_S_S128x128 : S_.BroadcastsInDim S128x128 (![] : Fin 0 → Fin S128x128.rank)
  reducesTo_S128x128_S_d0_1 : S128x128.ReducesTo [0, 1] S_
  bcast_S_S261x128 : S_.BroadcastsInDim S261x128 (![] : Fin 0 → Fin S261x128.rank)
  reducesTo_S261x128_S_d0_1 : S261x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S128 .f32) (main_arg11 : FVec F S128x1 .f32) (main_arg12 : FVec F S1 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg11
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg12
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg7 : FVec F S261x128 .f32) (main_arg8 : FVec F S128 .f32) (main_arg9 : FVec F S128x128 .f32) (main_arg10 : FVec F S128 .f32) (main_arg11 : FVec F S128x1 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S261x128 .f32 := Host.absf main_arg7
  let main_cst_6 : FVec F S_ .f32 := constant S_ .f32 0x7F800000#32
  let main_v20 : FVec F S261x128 .f32 := broadcastInDim S261x128 ![] bcast_S_S261x128 main_cst_6
  let main_v21 : IVec S261x128 1 := cmpf .olt main_v19 main_v20
  let main_c_7 : IVec S_ 1 := constantI S_ 1 1#1
  let main_v22 : IVec S_ 1 := (fun x v => Host.reduce IntOp.andi x v reducesTo_S261x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_v33

def fn {F : FTy → Type} [FloatOps F] (main_arg0 : FVec F S50000x133 .f32) (main_arg1 : IVec S2x800000 32) (main_arg2 : IVec S800000 32) (main_arg3 : FVec F S800000x14 .f32) (main_arg4 : IVec S50000 32) (main_arg5 : FVec F S147x128 .f32) (main_arg6 : FVec F S128x128 .f32) (main_arg7 : FVec F S261x128 .f32) (main_arg8 : FVec F S128 .f32) (main_arg9 : FVec F S128x128 .f32) (main_arg10 : FVec F S128 .f32) (main_arg11 : FVec F S128x1 .f32) (main_arg12 : FVec F S1 .f32) : IVec S_ 1 :=
  let main_v0 : FVec F S50000x133 .f32 := Host.absf main_arg0
  let main_cst : FVec F S_ .f32 := constant S_ .f32 0x7F800000#32
  let main_v1 : FVec F S50000x133 .f32 := broadcastInDim S50000x133 ![] bcast_S_S50000x133 main_cst
  let main_v2 : IVec S50000x133 1 := cmpf .olt main_v0 main_v1
  let main_c : IVec S_ 1 := constantI S_ 1 1#1
  let main_v3 : IVec S_ 1 := (fun x v => Host.reduce IntOp.andi x v reducesTo_S50000x133_S_d0_1 h_S_) main_v2 main_c
  let main_v4 : FVec F S800000x14 .f32 := Host.absf main_arg3
  let main_cst_0 : FVec F S_ .f32 := constant S_ .f32 0x7F800000#32
  let main_v5 : FVec F S800000x14 .f32 := broadcastInDim S800000x14 ![] bcast_S_S800000x14 main_cst_0
  let main_v6 : IVec S800000x14 1 := cmpf .olt main_v4 main_v5
  let main_c_1 : IVec S_ 1 := constantI S_ 1 1#1
  let main_v7 : IVec S_ 1 := (fun x v => Host.reduce IntOp.andi x v reducesTo_S800000x14_S_d0_1 h_S_) main_v6 main_c_1
  let main_v8 : IVec S_ 1 := andi main_v3 main_v7
  let main_v9 : FVec F S147x128 .f32 := Host.absf main_arg5
  let main_cst_2 : FVec F S_ .f32 := constant S_ .f32 0x7F800000#32
  let main_v10 : FVec F S147x128 .f32 := broadcastInDim S147x128 ![] bcast_S_S147x128 main_cst_2
  let main_v11 : IVec S147x128 1 := cmpf .olt main_v9 main_v10
  let main_c_3 : IVec S_ 1 := constantI S_ 1 1#1
  let main_v12 : IVec S_ 1 := (fun x v => Host.reduce IntOp.andi x v reducesTo_S147x128_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_v13 main_v16
-- ==== Kernel.lean ====
abbrev S50000x133 : Shape := ⟨2, ![50000, 133]⟩
abbrev S2x800000 : Shape := ⟨2, ![2, 800000]⟩
abbrev S800000 : Shape := ⟨1, ![800000]⟩
abbrev S800000x14 : Shape := ⟨2, ![800000, 14]⟩
abbrev S50000 : Shape := ⟨1, ![50000]⟩
abbrev S147x128 : Shape := ⟨2, ![147, 128]⟩
abbrev S128x128 : Shape := ⟨2, ![128, 128]⟩
abbrev S261x128 : Shape := ⟨2, ![261, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S_ : Shape := ⟨0, ![]⟩
abbrev S800000x1 : Shape := ⟨2, ![800000, 1]⟩
abbrev S800000x133 : Shape := ⟨2, ![800000, 133]⟩
abbrev S133x128 : Shape := ⟨2, ![133, 128]⟩
abbrev S14x128 : Shape := ⟨2, ![14, 128]⟩
abbrev S800000x128 : Shape := ⟨2, ![800000, 128]⟩
abbrev S8000x133 : Shape := ⟨2, ![8000, 133]⟩
abbrev S8000x14 : Shape := ⟨2, ![8000, 14]⟩
abbrev S8000x128 : Shape := ⟨2, ![8000, 128]⟩
abbrev S50000x128 : Shape := ⟨2, ![50000, 128]⟩
abbrev S1x128 : Shape := ⟨2, ![1, 128]⟩
abbrev S5000x133 : Shape := ⟨2, ![5000, 133]⟩
abbrev S5000x128 : Shape := ⟨2, ![5000, 128]⟩
abbrev S512x128 : Shape := ⟨2, ![512, 128]⟩
abbrev S50000x1 : Shape := ⟨2, ![50000, 1]⟩
abbrev S512x1 : Shape := ⟨2, ![512, 1]⟩
abbrev S1x1 : Shape := ⟨2, ![1, 1]⟩

abbrev nBuf : Space → Nat
  | .hbm => 111
  | .vmem => 31
  | .smem => 0
  | _ => 0

abbrev bufTy : (tb : Table) → Fin (tcTables nBuf tb) → BufTy
  | .hbm, ⟨0, _⟩ => ⟨S50000x133, .f32⟩
  | .hbm, ⟨1, _⟩ => ⟨S2x800000, .i32⟩
  | .hbm, ⟨2, _⟩ => ⟨S800000, .i32⟩
  | .hbm, ⟨3, _⟩ => ⟨S800000x14, .f32⟩
  | .hbm, ⟨4, _⟩ => ⟨S50000, .i32⟩
  | .hbm, ⟨5, _⟩ => ⟨S147x128, .f32⟩
  | .hbm, ⟨6, _⟩ => ⟨S128x128, .f32⟩
  | .hbm, ⟨7, _⟩ => ⟨S261x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x133, .f32⟩
  | .hbm, ⟨26, _⟩ => ⟨S133x128, .f32⟩
  | .hbm, ⟨27, _⟩ => ⟨S14x128, .f32⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S800000x128, .f32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x128, .f32⟩
  | .hbm, ⟨75, _⟩ => ⟨S800000x128, .f32⟩
  | .hbm, ⟨76, _⟩ => ⟨S800000x128, .f32⟩
  | .hbm, ⟨77, _⟩ => ⟨S_, .f32⟩
  | .hbm, ⟨78, _⟩ => ⟨S50000x128, .f32⟩
  | .hbm, ⟨79, _⟩ => ⟨S800000x1, .i32⟩
  | .hbm, ⟨80, _⟩ => ⟨S50000x128, .f32⟩
  | .hbm, ⟨81, _⟩ => ⟨S133x128, .f32⟩
  | .hbm, ⟨82, _⟩ => ⟨S128x128, .f32⟩
  | .hbm, ⟨83, _⟩ => ⟨S1x128, .f32⟩
  | .hbm, ⟨84, _⟩ => ⟨S50000x128, .f32⟩
  | .hbm, ⟨85, _⟩ => ⟨S_, .f32⟩
  | .hbm, ⟨86, _⟩ => ⟨S512x128, .f32⟩
  | .hbm, ⟨87, _⟩ => ⟨S50000x1, .i32⟩
  | .hbm, ⟨88, _⟩ => ⟨S512x128, .f32⟩
  | .hbm, ⟨89, _⟩ => ⟨S_, .f32⟩
  | .hbm, ⟨90, _⟩ => ⟨S50000x1, .f32⟩
  | .hbm, ⟨91, _⟩ => ⟨S_, .f32⟩
  | .hbm, ⟨92, _⟩ => ⟨S512x1, .f32⟩
  | .hbm, ⟨93, _⟩ => ⟨S50000x1, .i32⟩
  | .hbm, ⟨94, _⟩ => ⟨S512x1, .f32⟩
  | .hbm, ⟨95, _⟩ => ⟨S_, .f32⟩
  | .hbm, ⟨96, _⟩ => ⟨S512x1, .f32⟩
  | .hbm, ⟨97, _⟩ => ⟨S512x1, .f32⟩
  | .hbm, ⟨98, _⟩ => ⟨S512x128, .f32⟩
  | .hbm, ⟨99, _⟩ => ⟨S512x128, .f32⟩
  | .hbm, ⟨100, _⟩ => ⟨S512x128, .f32⟩
  | .hbm, ⟨101, _⟩ => ⟨S1x128, .f32⟩
  | .hbm, ⟨102, _⟩ => ⟨S512x128, .f32⟩
  | .hbm, ⟨103, _⟩ => ⟨S512x128, .f32⟩
  | .hbm, ⟨104, _⟩ => ⟨S_, .f32⟩
  | .hbm, ⟨105, _⟩ => ⟨S512x128, .f32⟩
  | .hbm, ⟨106, _⟩ => ⟨S512x128, .f32⟩
  | .hbm, ⟨107, _⟩ => ⟨S512x1, .f32⟩
  | .hbm, ⟨108, _⟩ => ⟨S1x1, .f32⟩
  | .hbm, ⟨109, _⟩ => ⟨S512x1, .f32⟩
  | .hbm, ⟨110, _⟩ => ⟨S512x1, .f32⟩
  | .local _ .vmem, ⟨0, _⟩ => ⟨S8000x133, .f32⟩
  | .local _ .vmem, ⟨1, _⟩ => ⟨S8000x133, .f32⟩
  | .local _ .vmem, ⟨2, _⟩ => ⟨S8000x14, .f32⟩
  | .local _ .vmem, ⟨3, _⟩ => ⟨S8000x14, .f32⟩
  | .local _ .vmem, ⟨4, _⟩ => ⟨S133x128, .f32⟩
  | .local _ .vmem, ⟨5, _⟩ => ⟨S14x128, .f32⟩
  | .local _ .vmem, ⟨6, _⟩ => ⟨S8000x128, .f32⟩
  | .local _ .vmem, ⟨7, _⟩ => ⟨S8000x128, .f32⟩
  | .local _ .vmem, ⟨8, _⟩ => ⟨S8000x128, .f32⟩
  | .local _ .vmem, ⟨9, _⟩ => ⟨S8000x128, .f32⟩
  | .local _ .vmem, ⟨10, _⟩ => ⟨S8000x128, .f32⟩
  | .local _ .vmem, ⟨11, _⟩ => ⟨S8000x128, .f32⟩
  | .local _ .vmem, ⟨12, _⟩ => ⟨S128x128, .f32⟩
  | .local _ .vmem, ⟨13, _⟩ => ⟨S8000x128, .f32⟩
  | .local _ .vmem, ⟨14, _⟩ => ⟨S8000x128, .f32⟩
  | .local _ .vmem, ⟨15, _⟩ => ⟨S8000x128, .f32⟩
  | .local _ .vmem, ⟨16, _⟩ => ⟨S8000x128, .f32⟩
  | .local _ .vmem, ⟨17, _⟩ => ⟨S8000x128, .f32⟩
  | .local _ .vmem, ⟨18, _⟩ => ⟨S8000x128, .f32⟩
  | .local _ .vmem, ⟨19, _⟩ => ⟨S128x128, .f32⟩
  | .local _ .vmem, ⟨20, _⟩ => ⟨S8000x128, .f32⟩
  | .local _ .vmem, ⟨21, _⟩ => ⟨S8000x128, .f32⟩
  | .local _ .vmem, ⟨22, _⟩ => ⟨S5000x133, .f32⟩
  | .local _ .vmem, ⟨23, _⟩ => ⟨S5000x133, .f32⟩
  | .local _ .vmem, ⟨24, _⟩ => ⟨S5000x128, .f32⟩
  | .local _ .vmem, ⟨25, _⟩ => ⟨S5000x128, .f32⟩
  | .local _ .vmem, ⟨26, _⟩ => ⟨S133x128, .f32⟩
  | .local _ .vmem, ⟨27, _⟩ => ⟨S128x128, .f32⟩
  | .local _ .vmem, ⟨28, _⟩ => ⟨S1x128, .f32⟩
  | .local _ .vmem, ⟨29, _⟩ => ⟨S5000x128, .f32⟩
  | .local _ .vmem, ⟨30, _⟩ => ⟨S5000x128, .f32⟩
  | _, _ => ⟨S50000x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_8 : Ref sig .tc := ⟨.hbm, 66, rfl⟩
abbrev main_v43 : Ref sig .tc := ⟨.hbm, 67, rfl⟩
abbrev main_v44 : Ref sig .tc := ⟨.hbm, 68, rfl⟩
abbrev main_c_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg5_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem5_1 : DmaSem sig := 30

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x133 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x14 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S133x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S14x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x133 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S133x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S147x128_S133x128_0_0 : S147x128.Slices ![0, 0] S133x128
  slices_S147x128_S14x128_133_0 : S147x128.Slices ![133, 0] S14x128
  inb_S8000x133_S8000x133_0_0 : ∀ a, (![0, 0] : Fin 2 → Nat) a + S8000x133.size a ≤ S8000x133.size a
  h_S8000x133 : 0 < S8000x133.numel
  shapeCasts_S8000x133_S8000x133 : S8000x133.ShapeCasts S8000x133
  inb_S8000x14_S8000x14_0_0 : ∀ a, (![0, 0] : Fin 2 → Nat) a + S8000x14.size a ≤ S8000x14.size a
  h_S8000x14 : 0 < S8000x14.numel
  inb_S133x128_S133x128_0_0 : ∀ a, (![0, 0] : Fin 2 → Nat) a + S133x128.size a ≤ S133x128.size a
  h_S133x128 : 0 < S133x128.numel
  shapeCasts_S133x128_S133x128 : S133x128.ShapeCasts S133x128
  inb_S14x128_S14x128_0_0 : ∀ a, (![0, 0] : Fin 2 → Nat) a + S14x128.size a ≤ S14x128.size a
  h_S14x128 : 0 < S14x128.numel
  shapeCasts_S14x128_S14x128 : S14x128.ShapeCasts S14x128
  inb_S8000x128_S8000x128_0_0 : ∀ a, (![0, 0] : Fin 2 → Nat) a + S8000x128.size a ≤ S8000x128.size a
  h_S8000x128 : 0 < S8000x128.numel
  bcast_S_S50000x128 : S_.BroadcastsInDim S50000x128 (![] : Fin 0 → Fin S50000x128.rank)
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  slices_S261x128_S133x128_0_0 : S261x128.Slices ![0, 0] S133x128
  slices_S261x128_S128x128_133_0 : S261x128.Slices ![133, 0] S128x128
  shapeCasts_S128_S1x128 : S128.ShapeCasts S1x128
  inb_S5000x133_S5000x133_0_0 : ∀ a, (![0, 0] : Fin 2 → Nat) a + S5000x133.size a ≤ S5000x133.size a
  h_S5000x133 : 0 < S5000x133.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S50000x133_S800000x1_S800000x133_1_0_n_n_0_1_1133_wf : GatherDims.WF S50000x133 S800000x1 S800000x133 [1] [0] [] [0] [] 1 ![1, 133]
  dot_S8000x133_S133x128_S8000x128_1_0_0_1_n_n_wf : DotDims.WF S8000x133 S133x128 S8000x128 [1] [0] [0] [1] [] []
  dot_S8000x14_S14x128_S8000x128_1_0_0_1_n_n_wf : DotDims.WF S8000x14 S14x128 S8000x128 [1] [0] [0] [1] [] []
  scatter_S50000x128_S800000x1_S800000x128_1_0_0_1_wf : ScatterDims.WF S50000x128 S800000x1 S800000x128 [1] [0] [0] 1
  gather_S50000x128_S800000x1_S800000x128_1_0_n_n_0_1_1128_wf : GatherDims.WF S50000x128 S800000x1 S800000x128 [1] [0] [] [0] [] 1 ![1, 128]
  gather_S800000x128_S800000x1_S800000x128_1_0_n_n_0_1_1128_wf : GatherDims.WF S800000x128 S800000x1 S800000x128 [1] [0] [] [0] [] 1 ![1, 128]
  dot_S8000x128_S128x128_S8000x128_1_0_0_1_n_n_wf : DotDims.WF S8000x128 S128x128 S8000x128 [1] [0] [0] [1] [] []
  dot_S5000x133_S133x128_S5000x128_1_0_0_1_n_n_wf : DotDims.WF S5000x133 S133x128 S5000x128 [1] [0] [0] [1] [] []
  dot_S5000x128_S128x128_S5000x128_1_0_0_1_n_n_wf : DotDims.WF S5000x128 S128x128 S5000x128 [1] [0] [0] [1] [] []
  scatter_S512x128_S50000x1_S50000x128_1_0_0_1_wf : ScatterDims.WF S512x128 S50000x1 S50000x128 [1] [0] [0] 1
  scatter_S512x1_S50000x1_S50000x1_1_0_0_1_wf : ScatterDims.WF S512x1 S50000x1 S50000x1 [1] [0] [0] 1
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x133.size a ≤ S800000x133.size a
  hwx0_0 : ∀ i : grid0.Coords, EltTy.bits .f32 = 32 ∨ (Rect.block (s := S800000x133) S8000x133.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x14.size a ≤ S800000x14.size a
  hwx0_1 : ∀ i : grid0.Coords, EltTy.bits .f32 = 32 ∨ (Rect.block (s := S800000x14) S8000x14.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S133x128.size a ≤ S133x128.size a
  hwx0_2 : ∀ i : grid0.Coords, EltTy.bits .f32 = 32 ∨ (Rect.block (s := S133x128) S133x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S14x128.size a ≤ S14x128.size a
  hwx0_3 : ∀ i : grid0.Coords, EltTy.bits .f32 = 32 ∨ (Rect.block (s := S14x128) S14x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x128.size a ≤ S800000x128.size a
  hwx0_4 : ∀ i : grid0.Coords, EltTy.bits .f32 = 32 ∨ (Rect.block (s := S800000x128) S8000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S800000x128.size a
  hwx1_1 : ∀ i : grid1.Coords, EltTy.bits .f32 = 32 ∨ (Rect.block (s := S800000x128) S8000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S800000x128.size a
  hwx1_3 : ∀ i : grid1.Coords, EltTy.bits .f32 = 32 ∨ (Rect.block (s := S800000x128) S8000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S800000x128.size a
  hwx2_0 : ∀ i : grid2.Coords, EltTy.bits .f32 = 32 ∨ (Rect.block (s := S800000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S800000x128.size a
  hwx2_1 : ∀ i : grid2.Coords, EltTy.bits .f32 = 32 ∨ (Rect.block (s := S800000x128) S8000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x128.size a ≤ S800000x128.size a
  hwx2_3 : ∀ i : grid2.Coords, EltTy.bits .f32 = 32 ∨ (Rect.block (s := S800000x128) S8000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x133.size a ≤ S50000x133.size a
  hwx3_0 : ∀ i : grid3.Coords, EltTy.bits .f32 = 32 ∨ (Rect.block (s := S50000x133) S5000x133.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S133x128.size a ≤ S133x128.size a
  hwx3_2 : ∀ i : grid3.Coords, EltTy.bits .f32 = 32 ∨ (Rect.block (s := S133x128) S133x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

variable [Facts₀]

def gather_S50000x133_S800000x1_S800000x133_1_0_n_n_0_1_1133 : GatherDims S50000x133 S800000x1 S800000x133 where
  offsetDims := [1]
  collapsedSliceDims := [0]
  operandBatchingDims := []
  startIndicesBatchingDims := []
  startIndexMap := [0]
  indexVectorDim := 1
  sliceSizes := ![1, 133]
  wf := gather_S50000x133_S800000x1_S800000x133_1_0_n_n_0_1_1133_wf
def dot_S8000x133_S133x128_S8000x128_1_0_0_1_n_n : DotDims S8000x133 S133x128 S8000x128 where
  lhsContracting := [1]
  rhsContracting := [0]
  lhsNonContracting := [0]
  rhsNonContracting := [1]
  lhsBatch := []
  rhsBatch := []
  wf := dot_S8000x133_S133x128_S8000x128_1_0_0_1_n_n_wf
def dot_S8000x14_S14x128_S8000x128_1_0_0_1_n_n : DotDims S8000x14 S14x128 S8000x128 where
  lhsContracting := [1]
  rhsContracting := [0]
  lhsNonContracting := [0]
  rhsNonContracting := [1]
  lhsBatch := []
  rhsBatch := []
  wf := dot_S8000x14_S14x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S800000x128_S800000x1_S800000x128_1_0_n_n_0_1_1128 : GatherDims S800000x128 S800000x1 S800000x128 where
  offsetDims := [1]
  collapsedSliceDims := [0]
  operandBatchingDims := []
  startIndicesBatchingDims := []
  startIndexMap := [0]
  indexVectorDim := 1
  sliceSizes := ![1, 128]
  wf := gather_S800000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S5000x133_S133x128_S5000x128_1_0_0_1_n_n : DotDims S5000x133 S133x128 S5000x128 where
  lhsContracting := [1]
  rhsContracting := [0]
  lhsNonContracting := [0]
  rhsNonContracting := [1]
  lhsBatch := []
  rhsBatch := []
  wf := dot_S5000x133_S133x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_v10) S8000x133.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8000x14.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S133x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S14x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S8000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v13) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S8000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S5000x133.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v55) S133x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v58) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x133 : Shape := ⟨2, ![50000, 133]⟩
abbrev S2x800000 : Shape := ⟨2, ![2, 800000]⟩
abbrev S800000 : Shape := ⟨1, ![800000]⟩
abbrev S800000x14 : Shape := ⟨2, ![800000, 14]⟩
abbrev S50000 : Shape := ⟨1, ![50000]⟩
abbrev S147x128 : Shape := ⟨2, ![147, 128]⟩
abbrev S128x128 : Shape := ⟨2, ![128, 128]⟩
abbrev S261x128 : Shape := ⟨2, ![261, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S_ : Shape := ⟨0, ![]⟩
abbrev S800000x1 : Shape := ⟨2, ![800000, 1]⟩
abbrev S800000x133 : Shape := ⟨2, ![800000, 133]⟩
abbrev S800000x147 : Shape := ⟨2, ![800000, 147]⟩
abbrev S800000x128 : Shape := ⟨2, ![800000, 128]⟩
abbrev S50000x128 : Shape := ⟨2, ![50000, 128]⟩
abbrev S50000x261 : Shape := ⟨2, ![50000, 261]⟩
abbrev S1x128 : Shape := ⟨2, ![1, 128]⟩
abbrev S512x128 : Shape := ⟨2, ![512, 128]⟩
abbrev S50000x1 : Shape := ⟨2, ![50000, 1]⟩
abbrev S512x1 : Shape := ⟨2, ![512, 1]⟩
abbrev S1x1 : Shape := ⟨2, ![1, 1]⟩

abbrev nBuf : Space → Nat
  | .hbm => 133
  | .vmem => 0
  | .smem => 0
  | _ => 0

abbrev hbmTy0_0 (i : Nat) : BufTy := match i % 128 with
  | 0 => ⟨S50000x133, .f32⟩
  | 1 => ⟨S2x800000, .i32⟩
  | 2 => ⟨S800000, .i32⟩
  | 3 => ⟨S800000x14, .f32⟩
  | 4 => ⟨S50000, .i32⟩
  | 5 => ⟨S147x128, .f32⟩
  | 6 => ⟨S128x128, .f32⟩
  | 7 => ⟨S261x128, .f32⟩
  | 8 => ⟨S128, .f32⟩
  | 9 => ⟨S128x128, .f32⟩
  | 10 => ⟨S128, .f32⟩
  | 11 => ⟨S128x1, .f32⟩
  | 12 => ⟨S1, .f32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x133, .f32⟩
  | 24 => ⟨S800000x147, .f32⟩
  | 25 => ⟨S800000x128, .f32⟩
  | 26 => ⟨S_, .f32⟩
  | 27 => ⟨S800000x128, .f32⟩
  | 28 => ⟨S800000x128, .f32⟩
  | 29 => ⟨S1x800000, .i32⟩
  | 30 => ⟨S800000, .i32⟩
  | 31 => ⟨S_, .f32⟩
  | 32 => ⟨S50000x128, .f32⟩
  | 33 => ⟨S800000x1, .i32⟩
  | 34 => ⟨S50000x128, .f32⟩
  | 35 => ⟨S1x800000, .i32⟩
  | 36 => ⟨S800000, .i32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x128, .f32⟩
  | 56 => ⟨S800000x128, .f32⟩
  | 57 => ⟨S800000x128, .f32⟩
  | 58 => ⟨S_, .f32⟩
  | 59 => ⟨S800000x128, .f32⟩
  | 60 => ⟨S800000x128, .f32⟩
  | 61 => ⟨S1x800000, .i32⟩
  | 62 => ⟨S800000, .i32⟩
  | 63 => ⟨S_, .f32⟩
  | 64 => ⟨S50000x128, .f32⟩
  | 65 => ⟨S800000x1, .i32⟩
  | 66 => ⟨S50000x128, .f32⟩
  | 67 => ⟨S1x800000, .i32⟩
  | 68 => ⟨S800000, .i32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S800000x128, .f32⟩
  | 88 => ⟨S800000x128, .f32⟩
  | 89 => ⟨S800000x128, .f32⟩
  | 90 => ⟨S_, .f32⟩
  | 91 => ⟨S800000x128, .f32⟩
  | 92 => ⟨S800000x128, .f32⟩
  | 93 => ⟨S1x800000, .i32⟩
  | 94 => ⟨S800000, .i32⟩
  | 95 => ⟨S_, .f32⟩
  | 96 => ⟨S50000x128, .f32⟩
  | 97 => ⟨S800000x1, .i32⟩
  | 98 => ⟨S50000x128, .f32⟩
  | 99 => ⟨S50000x261, .f32⟩
  | 100 => ⟨S50000x128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S_, .f32⟩
  | 108 => ⟨S512x128, .f32⟩
  | 109 => ⟨S50000x1, .i32⟩
  | 110 => ⟨S512x128, .f32⟩
  | 111 => ⟨S_, .f32⟩
  | 112 => ⟨S50000x1, .f32⟩
  | 113 => ⟨S_, .f32⟩
  | 114 => ⟨S512x1, .f32⟩
  | 115 => ⟨S50000x1, .i32⟩
  | 116 => ⟨S512x1, .f32⟩
  | 117 => ⟨S_, .f32⟩
  | 118 => ⟨S512x1, .f32⟩
  | 119 => ⟨S512x1, .f32⟩
  | 120 => ⟨S512x128, .f32⟩
  | 121 => ⟨S512x128, .f32⟩
  | 122 => ⟨S512x128, .f32⟩
  | 123 => ⟨S1x128, .f32⟩
  | 124 => ⟨S512x128, .f32⟩
  | 125 => ⟨S512x128, .f32⟩
  | 126 => ⟨S_, .f32⟩
  | 127 => ⟨S512x128, .f32⟩
  | _ => ⟨S50000x133, .f32⟩

abbrev hbmTy0_1 (i : Nat) : BufTy := match i % 128 with
  | 0 => ⟨S512x128, .f32⟩
  | 1 => ⟨S512x1, .f32⟩
  | 2 => ⟨S1x1, .f32⟩
  | 3 => ⟨S512x1, .f32⟩
  | 4 => ⟨S512x1, .f32⟩
  | _ => ⟨S50000x133, .f32⟩

abbrev hbmTy (i : Nat) : BufTy := match i / 128 with
  | 0 => hbmTy0_0 i
  | 1 => hbmTy0_1 i
  | _ => ⟨S50000x133, .f32⟩

abbrev bufTy : (tb : Table) → Fin (tcTables nBuf tb) → BufTy
  | .hbm, ⟨i, _⟩ => hbmTy i
  | _, _ => ⟨S50000x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call0_cst : Ref sig .tc := ⟨.hbm, 26, rfl⟩
abbrev main_call0_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_1 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_3 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call1_cst : Ref sig .tc := ⟨.hbm, 58, rfl⟩
abbrev main_call1_v0 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_6 : Ref sig .tc := ⟨.hbm, 69, rfl⟩
abbrev main_v44 : Ref sig .tc := ⟨.hbm, 70, rfl⟩
abbrev main_v45 : Ref sig .tc := ⟨.hbm, 71, rfl⟩
abbrev main_c_7 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_8 : Ref sig .tc := ⟨.hbm, 78, rfl⟩
abbrev main_v51 : Ref sig .tc := ⟨.hbm, 79, rfl⟩
abbrev main_v52 : Ref sig .tc := ⟨.hbm, 80, rfl⟩
abbrev main_c_9 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_call2_cst : Ref sig .tc := ⟨.hbm, 90, rfl⟩
abbrev main_call2_v0 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_10 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_call3_cst : Ref sig .tc := ⟨.hbm, 104, rfl⟩
abbrev main_call3_v0 : Ref sig .tc := ⟨.hbm, 105, rfl⟩
abbrev main_v72 : Ref sig .tc := ⟨.hbm, 106, rfl⟩
abbrev main_cst_11 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_12 : Ref sig .tc := ⟨.hbm, 111, rfl⟩
abbrev main_v76 : Ref sig .tc := ⟨.hbm, 112, rfl⟩
abbrev main_cst_13 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_14 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_call4_cst : Ref sig .tc := ⟨.hbm, 126, rfl⟩
abbrev main_call4_v0 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x133_S800000x14_S800000x147_d1 : Shape.Concatenates [S800000x133, S800000x14] S800000x147 1
  bcast_S_S800000x128 : S_.BroadcastsInDim S800000x128 (![] : Fin 0 → Fin S800000x128.rank)
  slices_S2x800000_S1x800000_1_0 : S2x800000.Slices ![1, 0] S1x800000
  bcast_S_S50000x128 : S_.BroadcastsInDim S50000x128 (![] : Fin 0 → Fin S50000x128.rank)
  concatenates_S50000x133_S50000x128_S50000x261_d1 : Shape.Concatenates [S50000x133, S50000x128] S50000x261 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S50000x133_S800000x1_S800000x133_1_0_n_n_0_1_1133_wf : GatherDims.WF S50000x133 S800000x1 S800000x133 [1] [0] [] [0] [] 1 ![1, 133]
  dot_S800000x147_S147x128_S800000x128_1_0_0_1_n_n_wf : DotDims.WF S800000x147 S147x128 S800000x128 [1] [0] [0] [1] [] []
  scatter_S50000x128_S800000x1_S800000x128_1_0_0_1_wf : ScatterDims.WF S50000x128 S800000x1 S800000x128 [1] [0] [0] 1
  gather_S50000x128_S800000x1_S800000x128_1_0_n_n_0_1_1128_wf : GatherDims.WF S50000x128 S800000x1 S800000x128 [1] [0] [] [0] [] 1 ![1, 128]
  gather_S800000x128_S800000x1_S800000x128_1_0_n_n_0_1_1128_wf : GatherDims.WF S800000x128 S800000x1 S800000x128 [1] [0] [] [0] [] 1 ![1, 128]
  dot_S800000x128_S128x128_S800000x128_1_0_0_1_n_n_wf : DotDims.WF S800000x128 S128x128 S800000x128 [1] [0] [0] [1] [] []
  dot_S50000x261_S261x128_S50000x128_1_0_0_1_n_n_wf : DotDims.WF S50000x261 S261x128 S50000x128 [1] [0] [0] [1] [] []
  scatter_S512x128_S50000x1_S50000x128_1_0_0_1_wf : ScatterDims.WF S512x128 S50000x1 S50000x128 [1] [0] [0] 1
  scatter_S512x1_S50000x1_S50000x1_1_0_0_1_wf : ScatterDims.WF S512x1 S50000x1 S50000x1 [1] [0] [0] 1
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []

variable [Facts₀]

def gather_S50000x133_S800000x1_S800000x133_1_0_n_n_0_1_1133 : GatherDims S50000x133 S800000x1 S800000x133 where
  offsetDims := [1]
  collapsedSliceDims := [0]
  operandBatchingDims := []
  startIndicesBatchingDims := []
  startIndexMap := [0]
  indexVectorDim := 1
  sliceSizes := ![1, 133]
  wf := gather_S50000x133_S800000x1_S800000x133_1_0_n_n_0_1_1133_wf
def dot_S800000x147_S147x128_S800000x128_1_0_0_1_n_n : DotDims S800000x147 S147x128 S800000x128 where
  lhsContracting := [1]
  rhsContracting := [0]
  lhsNonContracting := [0]
  rhsNonContracting := [1]
  lhsBatch := []
  rhsBatch := []
  wf := dot_S800000x147_S147x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S800000x128_S800000x1_S800000x128_1_0_n_n_0_1_1128 : GatherDims S800000x128 S800000x1 S800000x128 where
  offsetDims := [1]
  collapsedSliceDims := [0]
  operandBatchingDims := []
  startIndicesBatchingDims := []
  startIndexMap := [0]
  indexVectorDim := 1
  sliceSizes := ![1, 128]
  wf := gather_S800000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S50000x261_S261x128_S50000x128_1_0_0_1_n_n : DotDims S50000x261 S261x128 S50000x128 where
  lhsContracting := [1]
  rhsContracting := [0]
  lhsNonContracting := [0]
  rhsNonContracting := [1]
  lhsBatch := []
  rhsBatch := []
  wf := dot_S50000x261_S261x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.LibJoinDot.lean ====
/-
  A join along the columns multiplied by stacked weights, read at one entry, and three dense layers cut at zero built on it.

  Entry (r, v) of a product x · w is the sum over the shared axis  ∑ q, x (r, q) · w (q, v)  (`rowDot`).  For the join
  [x | y] of an n × a and an n × b array along their columns and a weight array W with a + b rows,
      [x | y] · W  =  x · W[:a]  +  y · W[a:]      entry by entry            (`rowDot_join`),
  because a sum over the a + b positions of the joined axis is the sum over its first a positions plus the sum over its
  last b (`sum_join`, with `join_left` / `join_right` reading the join in each part): a regrouping of one finite sum,
  so it holds for every extended real, infinite entries included, and needs no finiteness of the operands.
  On it, three layers cut at zero — `edgeInit`  max (x·wx + y·wy) 0,  `edgeUpd`  max (h + m·w) 0,  `nodeUpd`
  max ((x·wx + y·wy) + bias) 0 with the bias a single row — each reached two ways:
    * as the vector unit forms it (`vec_…`): each product a matmul accumulated into a zero constant, the products added,
      the maximum taken with a splat of the zero scalar;
    * as the host forms it (`host_…`): the two row operands concatenated along axis 1, ONE dot_general with the stacked
      weights, the bias and the zero as broadcast arrays, the maximum taken with the zero array; the two weight pieces
      are given by hypotheses (`hwx`, `hwy`: any arrays that read as the first a and the last b rows of W, for instance
      its two unit-stride slices).
  An entry of a layer depends on ONE row of the row operands and one column of the weights (`…_rows`), so a block of
  rows of a layer is the layer of the same block of rows of the operands: what identifies a product computed a block of
  rows at a time with the whole product.  All extents are generic.
-/
import Idealize.ShloMosaic.PureOps.Ideal.Laws
import Idealize.ShloMosaic.Lib.ValueIdx
import Idealize.ShloMosaic.Lib.Pipeline.Value
import proofs.«137759_j73443940762169_1_alg».proof.Proof.LibDotRowsCols

noncomputable section

open scoped BigOperators

namespace Cert.Proof.Entry

open Idealize.ShloMosaic Idealize.ShloMosaic.ValueIdx Cert.Lib.DotRowsCols

/-- An r × s array of extended reals. -/
abbrev Mat (r s : Nat) : Type := FVec Ideal ⟨2, ![r, s]⟩ .f32

/-- The float zero, kept as its word: both programs spell it the same way. -/
abbrev zeroW : Ideal .f32 := Ideal.ofBits .f32 0x00000000#32

variable {n n' a b K c : Nat}

/-- Entry (r, v) of the product x · w: the sum over the shared axis. -/
def rowDot (x : Mat n K) (w : Mat K c) (j : (⟨2, ![n, c]⟩ : Shape).Idx) : Ideal .f32 :=
  ∑ q : Fin K, x (ix2 (j 0) q) * w (ix2 q (j 1))

/-- The initial edge layer: max (x·wx + y·wy) 0. -/
def edgeInit (x : Mat n a) (y : Mat n b) (wx : Mat a c) (wy : Mat b c) : Mat n c :=
  fun j => max (rowDot x wx j + rowDot y wy j) zeroW

/-- The edge update: max (h + m·w) 0. -/
def edgeUpd (h : Mat n c) (mm : Mat n K) (w : Mat K c) : Mat n c :=
  fun j => max (h j + rowDot mm w j) zeroW

/-- The node layer: max ((x·wx + y·wy) + bias) 0, the bias a single row. -/
def nodeUpd (x : Mat n a) (y : Mat n b) (wx : Mat a c) (wy : Mat b c) (bias : Mat 1 c) : Mat n c :=
  fun j => max ((rowDot x wx j + rowDot y wy j) + bias (ix2 0 (j 1))) zeroW

/-! ## An entry depends on one row of the row operands -/

theorem rowDot_rows (x : Mat n K) (x' : Mat n' K) (w : Mat K c) (j : (⟨2, ![n, c]⟩ : Shape).Idx)
    (j' : (⟨2, ![n', c]⟩ : Shape).Idx) (hx : ∀ q, x (ix2 (j 0) q) = x' (ix2 (j' 0) q)) (hc : j 1 = j' 1) :
    rowDot x w j = rowDot x' w j' := by
  unfold rowDot
  refine Finset.sum_congr rfl fun q _ => ?_
  rw [hx q, hc]

theorem edgeInit_rows (x : Mat n a) (x' : Mat n' a) (y : Mat n b) (y' : Mat n' b) (wx : Mat a c) (wy : Mat b c)
    (j : (⟨2, ![n, c]⟩ : Shape).Idx) (j' : (⟨2, ![n', c]⟩ : Shape).Idx)
    (hx : ∀ q, x (ix2 (j 0) q) = x' (ix2 (j' 0) q)) (hy : ∀ q, y (ix2 (j 0) q) = y' (ix2 (j' 0) q)) (hc : j 1 = j' 1) :
    edgeInit x y wx wy j = edgeInit x' y' wx wy j' := by
  unfold edgeInit
  rw [rowDot_rows x x' wx j j' hx hc, rowDot_rows y y' wy j j' hy hc]

theorem edgeUpd_rows (h : Mat n c) (h' : Mat n' c) (mm : Mat n K) (mm' : Mat n' K) (w : Mat K c)
    (j : (⟨2, ![n, c]⟩ : Shape).Idx) (j' : (⟨2, ![n', c]⟩ : Shape).Idx)
    (hh : h j = h' j') (hm : ∀ q, mm (ix2 (j 0) q) = mm' (ix2 (j' 0) q)) (hc : j 1 = j' 1) :
    edgeUpd h mm w j = edgeUpd h' mm' w j' := by
  unfold edgeUpd
  rw [hh, rowDot_rows mm mm' w j j' hm hc]

theorem nodeUpd_rows (x : Mat n a) (x' : Mat n' a) (y : Mat n b) (y' : Mat n' b) (wx : Mat a c) (wy : Mat b c)
    (bias : Mat 1 c) (j : (⟨2, ![n, c]⟩ : Shape).Idx) (j' : (⟨2, ![n', c]⟩ : Shape).Idx)
    (hx : ∀ q, x (ix2 (j 0) q) = x' (ix2 (j' 0) q)) (hy : ∀ q, y (ix2 (j 0) q) = y' (ix2 (j' 0) q)) (hc : j 1 = j' 1) :
    nodeUpd x y wx wy bias j = nodeUpd x' y' wx wy bias j' := by
  unfold nodeUpd
  rw [rowDot_rows x x' wx j j' hx hc, rowDot_rows y y' wy j j' hy hc, hc]

/-! ## The vector unit's forms -/

/-- Two products accumulated into zero, added, and cut at zero. -/
theorem vec_edgeInit (d₁ : DotDims ⟨2, ![n, a]⟩ ⟨2, ![a, c]⟩ ⟨2, ![n, c]⟩) (h₁ : RowsCols d₁)
    (d₂ : DotDims ⟨2, ![n, b]⟩ ⟨2, ![b, c]⟩ ⟨2, ![n, c]⟩) (h₂ : RowsCols d₂)
    (x : Mat n a) (y : Mat n b) (wx : Mat a c) (wy : Mat b c) :
    maximumf (F := Ideal) (φ := .f32)
        (addf (matmul (F := Ideal) d₁ none x wx (constant ⟨2, ![n, c]⟩ .f32 0x00000000#32))
              (matmul (F := Ideal) d₂ none y wy (constant ⟨2, ![n, c]⟩ .f32 0x00000000#32)))
        (broadcast ⟨2, ![n, c]⟩ (Scalar.ofBits (F := Ideal) .f32 0x00000000#32))
      = edgeInit x y wx wy := by
  funext j
  rw [maximumf_apply, addf_apply, h₁.matmul_zero_apply, h₂.matmul_zero_apply]
  rfl

/-- A product accumulated into zero added to the carried array, cut at zero. -/
theorem vec_edgeUpd (d : DotDims ⟨2, ![n, K]⟩ ⟨2, ![K, c]⟩ ⟨2, ![n, c]⟩) (hd : RowsCols d)
    (h : Mat n c) (mm : Mat n K) (w : Mat K c) :
    maximumf (F := Ideal) (φ := .f32)
        (addf h
              (matmul (F := Ideal) d none mm w (constant ⟨2, ![n, c]⟩ .f32 0x00000000#32)))
        (broadcast ⟨2, ![n, c]⟩ (Scalar.ofBits (F := Ideal) .f32 0x00000000#32))
      = edgeUpd h mm w := by
  funext j
  rw [maximumf_apply, addf_apply, hd.matmul_zero_apply]
  rfl

/-- Two products into zero, added, plus a bias array that repeats one row, cut at zero. -/
theorem vec_nodeUpd (d₁ : DotDims ⟨2, ![n, a]⟩ ⟨2, ![a, c]⟩ ⟨2, ![n, c]⟩) (h₁ : RowsCols d₁)
    (d₂ : DotDims ⟨2, ![n, b]⟩ ⟨2, ![b, c]⟩ ⟨2, ![n, c]⟩) (h₂ : RowsCols d₂)
    (x : Mat n a) (y : Mat n b) (wx : Mat a c) (wy : Mat b c) (bias : Mat 1 c) (biasB : Mat n c)
    (hb : ∀ j, biasB j = bias (ix2 0 (j 1))) :
    maximumf (F := Ideal) (φ := .f32)
        (addf (addf (matmul (F := Ideal) d₁ none x wx (constant ⟨2, ![n, c]⟩ .f32 0x00000000#32))
                    (matmul (F := Ideal) d₂ none y wy (constant ⟨2, ![n, c]⟩ .f32 0x00000000#32)))
              biasB)
        (broadcast ⟨2, ![n, c]⟩ (Scalar.ofBits (F := Ideal) .f32 0x00000000#32))
      = nodeUpd x y wx wy bias := by
  funext j
  rw [maximumf_apply, addf_apply, addf_apply, h₁.matmul_zero_apply, h₂.matmul_zero_apply, hb j]
  rfl

/-! ## The host's forms -/

/-- A sum over the joined axis is the sum over its first a positions plus the sum over its last b. -/
theorem sum_join (hab : a + b = K) (ia : Fin a → Fin K) (ib : Fin b → Fin K) (hia : ∀ q, (ia q).val = q.val)
    (hib : ∀ q, (ib q).val = a + q.val) (f : Fin K → EReal) :
    ∑ k : Fin K, f k = ∑ q : Fin a, f (ia q) + ∑ q : Fin b, f (ib q) := by
  subst hab
  rw [Fin.sum_univ_add]
  congr 1
  · exact Finset.sum_congr rfl fun q _ => congrArg f (Fin.ext (hia q).symm)
  · exact Finset.sum_congr rfl fun q _ => congrArg f (Fin.ext (hib q).symm)

/-- The join of x and y along the columns, read in its first a columns. -/
theorem join_left (hc : Shape.Concatenates [(⟨2, ![n, a]⟩ : Shape), ⟨2, ![n, b]⟩] ⟨2, ![n, K]⟩ 1) (x : Mat n a) (y : Mat n b)
    (r : Fin n) (q : Fin a) (k : Fin K) (hk : k.val = q.val) :
    concatenate (⟨2, ![n, K]⟩ : Shape) 1 [⟨⟨2, ![n, a]⟩, x⟩, ⟨⟨2, ![n, b]⟩, y⟩] hc (ix2 r k) = x (ix2 r q) :=
  concatenate_pair_apply_left 1 x y hc (ix2 r k) rfl (ix2 r q) (fun d => match d with
    | ⟨0, _⟩ => rfl
    | ⟨1, _⟩ => hk.symm)

/-- The join of x and y along the columns, read in its last b columns. -/
theorem join_right (hc : Shape.Concatenates [(⟨2, ![n, a]⟩ : Shape), ⟨2, ![n, b]⟩] ⟨2, ![n, K]⟩ 1) (x : Mat n a) (y : Mat n b)
    (r : Fin n) (q : Fin b) (k : Fin K) (hk : k.val = a + q.val) :
    concatenate (⟨2, ![n, K]⟩ : Shape) 1 [⟨⟨2, ![n, a]⟩, x⟩, ⟨⟨2, ![n, b]⟩, y⟩] hc (ix2 r k) = y (ix2 r q) :=
  concatenate_pair_apply_right 1 x y hc (ix2 r k) rfl rfl (ix2 r q) (fun d hd => match d, hd with
    | ⟨0, _⟩, _ => rfl
    | ⟨1, _⟩, hd => absurd rfl hd)
    (by show q.val + a = k.val; omega)

/-- The product of the join with the stacked weights is the sum of the two products with the two stacks. -/
theorem rowDot_join (hab : a + b = K) (hc : Shape.Concatenates [(⟨2, ![n, a]⟩ : Shape), ⟨2, ![n, b]⟩] ⟨2, ![n, K]⟩ 1)
    (x : Mat n a) (y : Mat n b) (W : Mat K c) (wx : Mat a c) (wy : Mat b c)
    (ia : Fin a → Fin K) (ib : Fin b → Fin K) (hia : ∀ q, (ia q).val = q.val) (hib : ∀ q, (ib q).val = a + q.val)
    (hwx : ∀ q v, wx (ix2 q v) = W (ix2 (ia q) v)) (hwy : ∀ q v, wy (ix2 q v) = W (ix2 (ib q) v))
    (j : (⟨2, ![n, c]⟩ : Shape).Idx) :
    rowDot (concatenate (⟨2, ![n, K]⟩ : Shape) 1 [⟨⟨2, ![n, a]⟩, x⟩, ⟨⟨2, ![n, b]⟩, y⟩] hc) W j
      = rowDot x wx j + rowDot y wy j := by
  unfold rowDot
  rw [sum_join hab ia ib hia hib]
  congr 1
  · refine Finset.sum_congr rfl fun q _ => ?_
    rw [join_left hc x y (j 0) q (ia q) (hia q)]
    exact congrArg (fun t => x (ix2 (j 0) q) * t) (hwx q (j 1)).symm
  · refine Finset.sum_congr rfl fun q _ => ?_
    rw [join_right hc x y (j 0) q (ib q) (hib q)]
    exact congrArg (fun t => y (ix2 (j 0) q) * t) (hwy q (j 1)).symm

/-- The host's initial edge layer: join, one product, maximum with a zero array. -/
theorem host_edgeInit (hab : a + b = K) (d : DotDims ⟨2, ![n, K]⟩ ⟨2, ![K, c]⟩ ⟨2, ![n, c]⟩) (hd : RowsCols d)
    (hc : Shape.Concatenates [(⟨2, ![n, a]⟩ : Shape), ⟨2, ![n, b]⟩] ⟨2, ![n, K]⟩ 1)
    (x : Mat n a) (y : Mat n b) (W : Mat K c) (wx : Mat a c) (wy : Mat b c)
    (ia : Fin a → Fin K) (ib : Fin b → Fin K) (hia : ∀ q, (ia q).val = q.val) (hib : ∀ q, (ib q).val = a + q.val)
    (hwx : ∀ q v, wx (ix2 q v) = W (ix2 (ia q) v)) (hwy : ∀ q v, wy (ix2 q v) = W (ix2 (ib q) v))
    (zero : Mat n c) (hz : ∀ j, zero j = zeroW) :
    maximumf (F := Ideal) (φ := .f32)
        (Host.dotGeneral (F := Ideal) d none
          (concatenate (⟨2, ![n, K]⟩ : Shape) 1 [⟨⟨2, ![n, a]⟩, x⟩, ⟨⟨2, ![n, b]⟩, y⟩] hc) W)
        zero
      = edgeInit x y wx wy := by
  funext j
  rw [maximumf_apply, hz j, hd.dotGeneral_apply]
  unfold edgeInit
  rw [← rowDot_join hab hc x y W wx wy ia ib hia hib hwx hwy j]
  rfl

/-- The host's edge update. -/
theorem host_edgeUpd (d : DotDims ⟨2, ![n, K]⟩ ⟨2, ![K, c]⟩ ⟨2, ![n, c]⟩) (hd : RowsCols d)
    (h : Mat n c) (mm : Mat n K) (w : Mat K c) (zero : Mat n c) (hz : ∀ j, zero j = zeroW) :
    maximumf (F := Ideal) (φ := .f32)
        (addf h (Host.dotGeneral (F := Ideal) d none mm w))
        zero
      = edgeUpd h mm w := by
  funext j
  rw [maximumf_apply, addf_apply, hz j, hd.dotGeneral_apply]
  rfl

/-- The host's node layer. -/
theorem host_nodeUpd (hab : a + b = K) (d : DotDims ⟨2, ![n, K]⟩ ⟨2, ![K, c]⟩ ⟨2, ![n, c]⟩) (hd : RowsCols d)
    (hc : Shape.Concatenates [(⟨2, ![n, a]⟩ : Shape), ⟨2, ![n, b]⟩] ⟨2, ![n, K]⟩ 1)
    (x : Mat n a) (y : Mat n b) (W : Mat K c) (wx : Mat a c) (wy : Mat b c)
    (ia : Fin a → Fin K) (ib : Fin b → Fin K) (hia : ∀ q, (ia q).val = q.val) (hib : ∀ q, (ib q).val = a + q.val)
    (hwx : ∀ q v, wx (ix2 q v) = W (ix2 (ia q) v)) (hwy : ∀ q v, wy (ix2 q v) = W (ix2 (ib q) v))
    (bias : Mat 1 c) (biasB : Mat n c) (hb : ∀ j, biasB j = bias (ix2 0 (j 1)))
    (zero : Mat n c) (hz : ∀ j, zero j = zeroW) :
    maximumf (F := Ideal) (φ := .f32)
        (addf (Host.dotGeneral (F := Ideal) d none
            (concatenate (⟨2, ![n, K]⟩ : Shape) 1 [⟨⟨2, ![n, a]⟩, x⟩, ⟨⟨2, ![n, b]⟩, y⟩] hc) W)
          biasB)
        zero
      = nodeUpd x y wx wy bias := by
  funext j
  rw [maximumf_apply, addf_apply, hz j, hd.dotGeneral_apply, hb j]
  unfold nodeUpd
  rw [← rowDot_join hab hc x y W wx wy ia ib hia hib hwx hwy j]
  rfl

end Cert.Proof.Entry

end
-- ==== Proof.ChainsK.lean ====
/-
  The parts of the encoder that both programs compute with the same host operations, named once: the edge list's two
  rows, index columns with jnp's wrap of a negative index, the gather of node features at edge sources, the sum of
  edge messages at their target nodes, the directed message (what arrives at an edge's source less the reverse edge's
  message), the per-graph mean and the readout.  They are carried as whole functions and never opened: the two
  programs differ only in how the three dense layers are formed, not in these.
  Then the encoder itself over these parts and the three dense layers read at an entry.
-/
import proofs.«137759_j73443940762169_1_alg».proof.Proof.Gen.KernelIdeal
import proofs.«137759_j73443940762169_1_alg».proof.Proof.LibJoinDot

noncomputable section

namespace Cert.Proof.K

open Cert.KernelIdeal Cert.KernelIdeal.Gen Idealize.ShloMosaic Cert.Proof.Entry

/-- An array of 32-bit integers of shape s. -/
abbrev I32 (s : Shape) : Type := IVec s 32
/-- An array of floats of shape s, at the exact reals. -/
abbrev F32 (s : Shape) : Type := FVec Ideal s .f32

/-- Each edge's source node: row 0 of the edge list. -/
def src (ei : I32 S2x800000) : I32 S800000 :=
  shapeCast _ (extractStridedSlice S1x800000 ![0, 0] ei slices_S2x800000_S1x800000_0_0) shapeCasts_S1x800000_S800000

/-- Each edge's target node: row 1 of the edge list. -/
def dst (ei : I32 S2x800000) : I32 S800000 :=
  shapeCast _ (extractStridedSlice S1x800000 ![1, 0] ei slices_S2x800000_S1x800000_1_0) shapeCasts_S1x800000_S800000

/-- A vector of indices as a one-column array. -/
def col (i : I32 S800000) : I32 S800000x1 := broadcastInDim S800000x1 ![0] bcast_S800000_S800000x1_0 i

/-- Node indices with a negative one wrapped once around the 50000 nodes, as a column. -/
def nodeCol (i : I32 S800000) : I32 S800000x1 :=
  col (select (cmpi .slt i (broadcastInDim S800000 ![] bcast_S_S800000 (constantI S_ 32 0#32)))
    (addi i (broadcastInDim S800000 ![] bcast_S_S800000 (constantI S_ 32 50000#32))) i)

/-- Edge indices with a negative one wrapped once around the 800000 edges, as a column. -/
def edgeCol (i : I32 S800000) : I32 S800000x1 :=
  col (select (cmpi .slt i (broadcastInDim S800000 ![] bcast_S_S800000 (constantI S_ 32 0#32)))
    (addi i (broadcastInDim S800000 ![] bcast_S_S800000 (constantI S_ 32 800000#32))) i)

/-- The node features gathered at every edge's source. -/
def xSrc (x : F32 S50000x133) (ei : I32 S2x800000) : F32 S800000x133 :=
  Host.gather gather_S50000x133_S800000x1_S800000x133_1_0_n_n_0_1_1133 x (nodeCol (src ei))

/-- Edge messages summed at their target nodes. -/
def agg (h : F32 S800000x128) (ei : I32 S2x800000) : F32 S50000x128 :=
  Host.scatterAdd scatter_S50000x128_S800000x1_S800000x128_1_0_0_1
    (broadcastInDim S50000x128 ![] bcast_S_S50000x128 (constant S_ .f32 0x00000000#32)) (col (dst ei)) h

/-- The directed message into each edge: what arrives at its source node, less its reverse edge's message. -/
def msg (h : F32 S800000x128) (ei : I32 S2x800000) (rev : I32 S800000) : F32 S800000x128 :=
  subf (Host.gather gather_S50000x128_S800000x1_S800000x128_1_0_n_n_0_1_1128 (agg h ei) (nodeCol (src ei)))
    (Host.gather gather_S800000x128_S800000x1_S800000x128_1_0_n_n_0_1_1128 h (edgeCol rev))

/-- The mean of the node rows of each graph (an empty graph's count taken as one). -/
def pooled (na : F32 S50000x128) (batch : I32 S50000) : F32 S512x128 :=
  Host.divf
    (Host.scatterAdd scatter_S512x128_S50000x1_S50000x128_1_0_0_1
      (broadcastInDim S512x128 ![] bcast_S_S512x128 (constant S_ .f32 0x00000000#32))
      (broadcastInDim S50000x1 ![0] bcast_S50000_S50000x1_0 batch) na)
    (broadcastInDim S512x128 ![0, 1] bcast_S512x1_S512x128_0_1
      (maximumf
        (Host.scatterAdd scatter_S512x1_S50000x1_S50000x1_1_0_0_1
          (broadcastInDim S512x1 ![] bcast_S_S512x1 (constant S_ .f32 0x00000000#32))
          (broadcastInDim S50000x1 ![0] bcast_S50000_S50000x1_0 batch)
          (broadcastInDim S50000x1 ![] bcast_S_S50000x1 (constant S_ .f32 0x3F800000#32)))
        (broadcastInDim S512x1 ![] bcast_S_S512x1 (constant S_ .f32 0x3F800000#32))))

/-- The readout: a hidden layer cut at zero, then one output per graph. -/
def pred (p : F32 S512x128) (M1w : F32 S128x128) (M1b : F32 S128) (M2w : F32 S128x1) (M2b : F32 S1) : F32 S512x1 :=
  addf
    (Host.dotGeneral dot_S512x128_S128x1_S512x1_1_0_0_1_n_n none
      (maximumf
        (addf (Host.dotGeneral dot_S512x128_S128x128_S512x128_1_0_0_1_n_n none p M1w)
          (broadcastInDim S512x128 ![0, 1] bcast_S1x128_S512x128_0_1 (broadcastInDim S1x128 ![1] bcast_S128_S1x128_1 M1b)))
        (broadcastInDim S512x128 ![] bcast_S_S512x128 (constant S_ .f32 0x00000000#32)))
      M2w)
    (broadcastInDim S512x1 ![0, 1] bcast_S1x1_S512x1_0_1 (broadcastInDim S1x1 ![1] bcast_S1_S1x1_1 M2b))

/-- The first 133 rows of the initial layer's weights (they meet the node features). -/
def w1x (W1 : F32 S147x128) : F32 S133x128 := extractStridedSlice S133x128 ![0, 0] W1 slices_S147x128_S133x128_0_0
/-- The last 14 rows of the initial layer's weights (they meet the edge features). -/
def w1e (W1 : F32 S147x128) : F32 S14x128 := extractStridedSlice S14x128 ![133, 0] W1 slices_S147x128_S14x128_133_0
/-- The first 133 rows of the node layer's weights. -/
def w3x (W3 : F32 S261x128) : F32 S133x128 := extractStridedSlice S133x128 ![0, 0] W3 slices_S261x128_S133x128_0_0
/-- The last 128 rows of the node layer's weights. -/
def w3v (W3 : F32 S261x128) : F32 S128x128 := extractStridedSlice S128x128 ![133, 0] W3 slices_S261x128_S128x128_133_0
/-- The node layer's bias as a single row. -/
def biasRow (b : F32 S128) : F32 S1x128 := shapeCast _ b shapeCasts_S128_S1x128

/-! ## The encoder over these parts -/

/-- Initial edge messages. -/
def h0 (x : F32 S50000x133) (ei : I32 S2x800000) (ea : F32 S800000x14) (W1 : F32 S147x128) : F32 S800000x128 :=
  edgeInit (n := 800000) (a := 133) (b := 14) (c := 128) (xSrc x ei) ea (w1x W1) (w1e W1)

/-- Edge messages after one round of message passing. -/
def h1 (x : F32 S50000x133) (ei : I32 S2x800000) (rev : I32 S800000) (ea : F32 S800000x14) (W1 : F32 S147x128)
    (W2 : F32 S128x128) : F32 S800000x128 :=
  edgeUpd (n := 800000) (K := 128) (c := 128) (h0 x ei ea W1) (msg (h0 x ei ea W1) ei rev) W2

/-- Edge messages after two rounds. -/
def h2 (x : F32 S50000x133) (ei : I32 S2x800000) (rev : I32 S800000) (ea : F32 S800000x14) (W1 : F32 S147x128)
    (W2 : F32 S128x128) : F32 S800000x128 :=
  edgeUpd (n := 800000) (K := 128) (c := 128) (h0 x ei ea W1) (msg (h1 x ei rev ea W1 W2) ei rev) W2

/-- Node attributes. -/
def nodeAttr (x : F32 S50000x133) (ei : I32 S2x800000) (rev : I32 S800000) (ea : F32 S800000x14) (W1 : F32 S147x128)
    (W2 : F32 S128x128) (W3 : F32 S261x128) (W3b : F32 S128) : F32 S50000x128 :=
  nodeUpd (n := 50000) (a := 133) (b := 128) (c := 128) x (agg (h2 x ei rev ea W1 W2) ei) (w3x W3) (w3v W3) (biasRow W3b)

end Cert.Proof.K

end
-- ==== Proof.Region0.lean ====
/-
  The first launch: 100 grid points, point t computing rows 8000·t … 8000·t + 7999 of the initial edge layer from the
  same rows of the gathered node features and of the edge features, and the two whole weight stacks.
-/
import proofs.«137759_j73443940762169_1_alg».proof.Proof.Gen.KernelIdeal.Frame
import proofs.«137759_j73443940762169_1_alg».proof.Proof.LibJoinDot
import Idealize.ShloMosaic.Lib.Pipeline.Value

set_option maxRecDepth 16384

noncomputable section

namespace Cert.Proof.Region0

open Cert.KernelIdeal Cert.KernelIdeal.Gen Idealize.ShloMosaic Idealize.ShloMosaic.TcCoe Idealize.ShloMosaic.ValueIdx
open Cert.Proof.Entry Cert.Lib.DotRowsCols Idealize.SL.Sem
open Idealize.ShloMosaic.Pipeline (Dat)

variable (V : (c : Dev nD) → (b : Ref sig .tc) → Buf (Elt Ideal) ((c : Thread nD τ).loc b))

theorem unitOff : (![0, 0] : Fin 2 → Nat) = fun _ => 0 := funext fun a => by fin_cases a <;> rfl

/-- On a block of 8000 rows the body computes the initial edge layer of the block. -/
theorem pay_eq (x0 : Vec Ideal S8000x133 .f32) (x1 : Vec Ideal S8000x14 .f32) (x2 : Vec Ideal S133x128 .f32)
    (x3 : Vec Ideal S14x128 .f32) :
    k0_pay1 (F := Ideal) x0 x1 x2 x3 = edgeInit (n := 8000) (a := 133) (b := 14) (c := 128) x0 x1 x2 x3 := by
  unfold k0_pay1
  simp only [shapeCast_self]
  exact vec_edgeInit dot_S8000x133_S133x128_S8000x128_1_0_0_1_n_n ⟨rfl, rfl, rfl, rfl, rfl, rfl⟩
    dot_S8000x14_S14x128_S8000x128_1_0_0_1_n_n ⟨rfl, rfl, rfl, rfl, rfl, rfl⟩ x0 x1 x2 x3

/-- The index maps over the grid: the row-blocked windows sit at block (t, 0), the weights at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point t writes back is block t of the layer of the whole arrays. -/
theorem flushed_eq (c : Dev nD) (t : Fin cfg0.N) :
    (dat0 (F := Ideal) V c).flushed 4 t = ((cfg0.win 4).blk t).view.read (Elt Ideal)
      (edgeInit (n := 800000) (a := 133) (b := 14) (c := 128) (V c main_v10) (V c main_arg3) (V c main_v11) (V c main_v12)) := by
  show (cfg0.win 4).cut (grid0.coords t) ((dat0 V c).after 4 t) = _
  rw [after0_4]
  unfold out0_4
  rw [View.canon_unit_zero unitOff]
  simp only [View.ld_unit_zero (S := S8000x133) unitOff, View.ld_unit_zero (S := S8000x14) unitOff,
    View.ld_unit_zero (S := S133x128) unitOff, View.ld_unit_zero (S := S14x128) unitOff]
  rw [pay_eq]
  obtain ⟨e00, e01, e10, e11, e20, e21, e30, e31, e40, e41⟩ := idx_facts t
  funext y
  show edgeInit (n := 8000) (a := 133) (b := 14) (c := 128) (iblk0 V c 0 t) (iblk0 V c 1 t) (iblk0 V c 2 t) (iblk0 V c 3 t) y
    = edgeInit (n := 800000) (a := 133) (b := 14) (c := 128) (V c main_v10) (V c main_arg3) (V c main_v11) (V c main_v12)
        (((cfg0.win 4).blk t).view.emb y)
  -- the weight windows hold their whole arrays
  have hw2 : (iblk0 V c 2 t : Mat 133 128) = V c main_v11 := by
    funext z
    show V c main_v11 (((cfg0.win 2).blk t).view.emb z) = V c main_v11 z
    refine congrArg (V c main_v11) (funext fun a => Fin.ext ?_)
    match a with
    | ⟨0, _⟩ => show win0_2.index t (0 : Fin 2) * 133 + 1 * (z 0).val = (z 0).val; omega
    | ⟨1, _⟩ => show win0_2.index t (1 : Fin 2) * 128 + 1 * (z 1).val = (z 1).val; omega
  have hw3 : (iblk0 V c 3 t : Mat 14 128) = V c main_v12 := by
    funext z
    show V c main_v12 (((cfg0.win 3).blk t).view.emb z) = V c main_v12 z
    refine congrArg (V c main_v12) (funext fun a => Fin.ext ?_)
    match a with
    | ⟨0, _⟩ => show win0_3.index t (0 : Fin 2) * 14 + 1 * (z 0).val = (z 0).val; omega
    | ⟨1, _⟩ => show win0_3.index t (1 : Fin 2) * 128 + 1 * (z 1).val = (z 1).val; omega
  rw [hw2, hw3]
  -- row r of block t of a row operand is row 8000·t + r of its array
  refine edgeInit_rows (n := 8000) (n' := 800000) (a := 133) (b := 14) (c := 128) (iblk0 V c 0 t) (V c main_v10) (iblk0 V c 1 t)
    (V c main_arg3) (V c main_v11) (V c main_v12) y (((cfg0.win 4).blk t).view.emb y) ?_ ?_ ?_
  · intro q
    show V c main_v10 (((cfg0.win 0).blk t).view.emb (ix2 (y 0) q)) = V c main_v10 (ix2 ((((cfg0.win 4).blk t).view.emb y) 0) q)
    refine congrArg (V c main_v10) (funext fun a => Fin.ext ?_)
    match a with
    | ⟨0, _⟩ => show win0_0.index t (0 : Fin 2) * 8000 + 1 * (y 0).val = win0_4.index t (0 : Fin 2) * 8000 + 1 * (y 0).val; omega
    | ⟨1, _⟩ => show win0_0.index t (1 : Fin 2) * 133 + 1 * q.val = q.val; omega
  · intro q
    show V c main_arg3 (((cfg0.win 1).blk t).view.emb (ix2 (y 0) q)) = V c main_arg3 (ix2 ((((cfg0.win 4).blk t).view.emb y) 0) q)
    refine congrArg (V c main_arg3) (funext fun a => Fin.ext ?_)
    match a with
    | ⟨0, _⟩ => show win0_1.index t (0 : Fin 2) * 8000 + 1 * (y 0).val = win0_4.index t (0 : Fin 2) * 8000 + 1 * (y 0).val; omega
    | ⟨1, _⟩ => show win0_1.index t (1 : Fin 2) * 14 + 1 * q.val = q.val; omega
  · refine Fin.ext ?_
    show (y 1).val = win0_4.index t (1 : Fin 2) * 128 + 1 * (y 1).val
    omega

/-- An entry lies in point t's block iff each coordinate is in the block's range. -/
theorem mem_blk (t : Fin cfg0.N) (i : S800000x128.Idx) :
    i ∈ ((cfg0.win 4).blk t).view.set ↔ ∀ a : Fin 2, win0_4.index t a * S8000x128.size a ≤ (i a).val
      ∧ (i a).val < win0_4.index t a * S8000x128.size a + S8000x128.size a := by
  show i ∈ ((View.whole main_v13).slice (win0_4.rect t)).set ↔ _
  rw [View.set_slice_whole, Rect.mem_set_unit]
  exact Iff.rfl

/-- Row r lies in the block of point r / 8000. -/
theorem cover (i : S800000x128.Idx) :
    ∃ t : Fin cfg0.N, (cfg0.win 4).flush t = true ∧ i ∈ ((cfg0.win 4).blk t).view.set := by
  have hi0 : (i 0).val < 800000 := (i 0).isLt
  have hi1 : (i 1).val < 128 := (i 1).isLt
  have hN : (i 0).val / 8000 < grid0.N := by rw [N_0]; omega
  obtain ⟨_, _, _, _, _, _, _, _, e40, e41⟩ := idx_facts ⟨(i 0).val / 8000, hN⟩
  refine ⟨⟨(i 0).val / 8000, hN⟩, flush0_4 _, ?_⟩
  rw [mem_blk]
  intro a
  match a with
  | ⟨0, _⟩ =>
    show win0_4.index ⟨(i 0).val / 8000, hN⟩ (0 : Fin 2) * 8000 ≤ (i 0).val
      ∧ (i 0).val < win0_4.index ⟨(i 0).val / 8000, hN⟩ (0 : Fin 2) * 8000 + 8000
    rw [e40]
    show (i 0).val / 8000 * 8000 ≤ (i 0).val ∧ (i 0).val < (i 0).val / 8000 * 8000 + 8000
    omega
  | ⟨1, _⟩ =>
    show win0_4.index ⟨(i 0).val / 8000, hN⟩ (1 : Fin 2) * 128 ≤ (i 1).val
      ∧ (i 1).val < win0_4.index ⟨(i 0).val / 8000, hN⟩ (1 : Fin 2) * 128 + 128
    rw [e41]
    omega

/-- After the first launch the edge array holds the initial edge layer of the arrays the launch found. -/
theorem arr (c : Dev nD) :
    (dat0 (F := Ideal) V c).arrAt 4 cfg0.N
      = edgeInit (n := 800000) (a := 133) (b := 14) (c := 128) (V c main_v10) (V c main_arg3) (V c main_v11) (V c main_v12) :=
  (dat0 V c).arrAt_eq_of_cover 4 _ (fun t _ => flushed_eq V c t) cover

end Cert.Proof.Region0

end
-- ==== Proof.Region1.lean ====
/-
  The second launch (first message-passing round): point t computes rows 8000·t … 8000·t + 7999 of the edge update from the
  same rows of the initial messages and of the directed messages, and the whole weight matrix.
-/
import proofs.«137759_j73443940762169_1_alg».proof.Proof.Gen.KernelIdeal.Frame
import proofs.«137759_j73443940762169_1_alg».proof.Proof.LibJoinDot
import Idealize.ShloMosaic.Lib.Pipeline.Value

set_option maxRecDepth 16384

noncomputable section

namespace Cert.Proof.Region1

open Cert.KernelIdeal Cert.KernelIdeal.Gen Idealize.ShloMosaic Idealize.ShloMosaic.TcCoe Idealize.ShloMosaic.ValueIdx
open Cert.Proof.Entry Cert.Lib.DotRowsCols Idealize.SL.Sem
open Idealize.ShloMosaic.Pipeline (Dat)

variable (V : (c : Dev nD) → (b : Ref sig .tc) → Buf (Elt Ideal) ((c : Thread nD τ).loc b))

/-- The offsets of a whole-block access are all zero. -/
theorem zeroOff : (![0, 0] : Fin 2 → Nat) = fun _ => 0 := funext fun a => by fin_cases a <;> rfl

/-- On a block of 8000 rows the body computes the edge update of the block. -/
theorem pay_eq (x0 : Vec Ideal S8000x128 .f32) (x1 : Vec Ideal S8000x128 .f32) (x2 : Vec Ideal S128x128 .f32) :
    k1_pay1 (F := Ideal) x0 x1 x2 = edgeUpd (n := 8000) (K := 128) (c := 128) x0 x1 x2 := by
  unfold k1_pay1
  simp only [shapeCast_self]
  exact vec_edgeUpd dot_S8000x128_S128x128_S8000x128_1_0_0_1_n_n ⟨rfl, rfl, rfl, rfl, rfl, rfl⟩ x0 x1 x2

/-- The index maps over the grid: the row-blocked windows sit at block (t, 0), the weights at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the edge update of the whole arrays. -/
theorem flushed_eq (c : Dev nD) (t : Fin cfg1.N) :
    (dat1 (F := Ideal) V c).flushed 3 t = ((cfg1.win 3).blk t).view.read (Elt Ideal)
      (edgeUpd (n := 800000) (K := 128) (c := 128) (V c main_v13) (V c main_v31) (V c main_arg6)) := by
  show (cfg1.win 3).cut (grid1.coords t) ((dat1 V c).after 3 t) = _
  rw [after1_3]
  unfold out1_3
  rw [View.canon_unit_zero zeroOff]
  simp only [View.ld_unit_zero (S := S8000x128) zeroOff, View.ld_unit_zero (S := S128x128) zeroOff]
  rw [pay_eq]
  obtain ⟨e00, e01, e10, e11, e20, e21, e30, e31⟩ := idx_facts t
  have hw : iblk1 V c 2 t = V c main_arg6 := by
    funext z
    show V c main_arg6 (((cfg1.win 2).blk t).view.emb z) = V c main_arg6 z
    refine congrArg (V c main_arg6) ?_
    funext a; apply Fin.ext
    match a with
    | ⟨0, _⟩ => show win1_2.index t (0 : Fin 2) * 128 + 1 * (z 0).val = (z 0).val; omega
    | ⟨1, _⟩ => show win1_2.index t (1 : Fin 2) * 128 + 1 * (z 1).val = (z 1).val; omega
  funext y
  show edgeUpd (n := 8000) (K := 128) (c := 128) (iblk1 V c 0 t) (iblk1 V c 1 t) (iblk1 V c 2 t) y
    = edgeUpd (n := 800000) (K := 128) (c := 128) (V c main_v13) (V c main_v31) (V c main_arg6)
        (((cfg1.win 3).blk t).view.emb y)
  refine (edgeUpd_rows (n := 8000) (n' := 800000) (K := 128) (c := 128) (iblk1 V c 0 t) (V c main_v13)
    (iblk1 V c 1 t) (V c main_v31) (iblk1 V c 2 t) y (((cfg1.win 3).blk t).view.emb y) ?_ ?_ ?_).trans ?_
  · show V c main_v13 (((cfg1.win 0).blk t).view.emb y) = V c main_v13 (((cfg1.win 3).blk t).view.emb y)
    refine congrArg (V c main_v13) ?_
    funext a; apply Fin.ext
    match a with
    | ⟨0, _⟩ => show win1_0.index t (0 : Fin 2) * 8000 + 1 * (y 0).val = win1_3.index t (0 : Fin 2) * 8000 + 1 * (y 0).val; omega
    | ⟨1, _⟩ => show win1_0.index t (1 : Fin 2) * 128 + 1 * (y 1).val = win1_3.index t (1 : Fin 2) * 128 + 1 * (y 1).val; omega
  · intro q
    show V c main_v31 (((cfg1.win 1).blk t).view.emb (ix2 (y 0) q))
      = V c main_v31 (ix2 ((((cfg1.win 3).blk t).view.emb y) 0) q)
    refine congrArg (V c main_v31) ?_
    funext a; apply Fin.ext
    match a with
    | ⟨0, _⟩ => show win1_1.index t (0 : Fin 2) * 8000 + 1 * (y 0).val = win1_3.index t (0 : Fin 2) * 8000 + 1 * (y 0).val; omega
    | ⟨1, _⟩ => show win1_1.index t (1 : Fin 2) * 128 + 1 * q.val = q.val; omega
  · apply Fin.ext
    show (y 1).val = win1_3.index t (1 : Fin 2) * 128 + 1 * (y 1).val
    omega
  · rw [hw]

/-- An entry of the array is in point t's block iff each coordinate is in the block's range on its axis. -/
theorem mem_blk (t : Fin cfg1.N) (i : S800000x128.Idx) :
    i ∈ ((cfg1.win 3).blk t).view.set ↔ ∀ a : Fin 2, win1_3.index t a * S8000x128.size a ≤ (i a).val
      ∧ (i a).val < win1_3.index t a * S8000x128.size a + S8000x128.size a := by
  show i ∈ ((View.whole main_v32).slice (win1_3.rect t)).set ↔ _
  rw [View.set_slice_whole, Rect.mem_set_unit]
  exact Iff.rfl

/-- Row r of the array is written back by point r / 8000. -/
theorem cover (i : S800000x128.Idx) :
    ∃ t : Fin cfg1.N, (cfg1.win 3).flush t = true ∧ i ∈ ((cfg1.win 3).blk t).view.set := by
  have hi0 : (i 0).val < 800000 := (i 0).isLt
  have hi1 : (i 1).val < 128 := (i 1).isLt
  have hN : (i 0).val / 8000 < cfg1.N := by
    show (i 0).val / 8000 < grid1.N
    rw [N_1]; omega
  refine ⟨⟨(i 0).val / 8000, hN⟩, flush1_3 _, ?_⟩
  rw [mem_blk]
  obtain ⟨-, -, -, -, -, -, e30, e31⟩ := idx_facts ⟨(i 0).val / 8000, hN⟩
  intro a
  match a with
  | ⟨0, _⟩ =>
    show win1_3.index ⟨(i 0).val / 8000, hN⟩ (0 : Fin 2) * 8000 ≤ (i 0).val
      ∧ (i 0).val < win1_3.index ⟨(i 0).val / 8000, hN⟩ (0 : Fin 2) * 8000 + 8000
    rw [e30]
    show (i 0).val / 8000 * 8000 ≤ (i 0).val ∧ (i 0).val < (i 0).val / 8000 * 8000 + 8000
    omega
  | ⟨1, _⟩ =>
    show win1_3.index ⟨(i 0).val / 8000, hN⟩ (1 : Fin 2) * 128 ≤ (i 1).val
      ∧ (i 1).val < win1_3.index ⟨(i 0).val / 8000, hN⟩ (1 : Fin 2) * 128 + 128
    rw [e31]
    omega

/-- After the second launch its output array holds the edge update of the arrays the launch found. -/
theorem arr (c : Dev nD) :
    (dat1 (F := Ideal) V c).arrAt 3 cfg1.N
      = edgeUpd (n := 800000) (K := 128) (c := 128) (V c main_v13) (V c main_v31) (V c main_arg6) :=
  (dat1 V c).arrAt_eq_of_cover 3 _ (fun t _ => flushed_eq V c t) cover

end Cert.Proof.Region1

end
-- ==== Proof.Region2.lean ====
/-
  The third launch (second message-passing round): point t computes rows 8000·t … 8000·t + 7999 of the edge update from the
  same rows of the initial messages and of the directed messages, and the whole weight matrix.
-/
import proofs.«137759_j73443940762169_1_alg».proof.Proof.Gen.KernelIdeal.Frame
import proofs.«137759_j73443940762169_1_alg».proof.Proof.LibJoinDot
import Idealize.ShloMosaic.Lib.Pipeline.Value

set_option maxRecDepth 16384

noncomputable section

namespace Cert.Proof.Region2

open Cert.KernelIdeal Cert.KernelIdeal.Gen Idealize.ShloMosaic Idealize.ShloMosaic.TcCoe Idealize.ShloMosaic.ValueIdx
open Cert.Proof.Entry Cert.Lib.DotRowsCols Idealize.SL.Sem
open Idealize.ShloMosaic.Pipeline (Dat)

variable (V : (c : Dev nD) → (b : Ref sig .tc) → Buf (Elt Ideal) ((c : Thread nD τ).loc b))

/-- The offsets of a whole-block access are all zero. -/
theorem zeroOff : (![0, 0] : Fin 2 → Nat) = fun _ => 0 := funext fun a => by fin_cases a <;> rfl

/-- On a block of 8000 rows the body computes the edge update of the block. -/
theorem pay_eq (x0 : Vec Ideal S8000x128 .f32) (x1 : Vec Ideal S8000x128 .f32) (x2 : Vec Ideal S128x128 .f32) :
    k2_pay1 (F := Ideal) x0 x1 x2 = edgeUpd (n := 8000) (K := 128) (c := 128) x0 x1 x2 := by
  unfold k2_pay1
  simp only [shapeCast_self]
  exact vec_edgeUpd dot_S8000x128_S128x128_S8000x128_1_0_0_1_n_n ⟨rfl, rfl, rfl, rfl, rfl, rfl⟩ x0 x1 x2

/-- The index maps over the grid: the row-blocked windows sit at block (t, 0), the weights at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the edge update of the whole arrays. -/
theorem flushed_eq (c : Dev nD) (t : Fin cfg2.N) :
    (dat2 (F := Ideal) V c).flushed 3 t = ((cfg2.win 3).blk t).view.read (Elt Ideal)
      (edgeUpd (n := 800000) (K := 128) (c := 128) (V c main_v13) (V c main_v50) (V c main_arg6)) := by
  show (cfg2.win 3).cut (grid2.coords t) ((dat2 V c).after 3 t) = _
  rw [after2_3]
  unfold out2_3
  rw [View.canon_unit_zero zeroOff]
  simp only [View.ld_unit_zero (S := S8000x128) zeroOff, View.ld_unit_zero (S := S128x128) zeroOff]
  rw [pay_eq]
  obtain ⟨e00, e01, e10, e11, e20, e21, e30, e31⟩ := idx_facts t
  have hw : iblk2 V c 2 t = V c main_arg6 := by
    funext z
    show V c main_arg6 (((cfg2.win 2).blk t).view.emb z) = V c main_arg6 z
    refine congrArg (V c main_arg6) ?_
    funext a; apply Fin.ext
    match a with
    | ⟨0, _⟩ => show win2_2.index t (0 : Fin 2) * 128 + 1 * (z 0).val = (z 0).val; omega
    | ⟨1, _⟩ => show win2_2.index t (1 : Fin 2) * 128 + 1 * (z 1).val = (z 1).val; omega
  funext y
  show edgeUpd (n := 8000) (K := 128) (c := 128) (iblk2 V c 0 t) (iblk2 V c 1 t) (iblk2 V c 2 t) y
    = edgeUpd (n := 800000) (K := 128) (c := 128) (V c main_v13) (V c main_v50) (V c main_arg6)
        (((cfg2.win 3).blk t).view.emb y)
  refine (edgeUpd_rows (n := 8000) (n' := 800000) (K := 128) (c := 128) (iblk2 V c 0 t) (V c main_v13)
    (iblk2 V c 1 t) (V c main_v50) (iblk2 V c 2 t) y (((cfg2.win 3).blk t).view.emb y) ?_ ?_ ?_).trans ?_
  · show V c main_v13 (((cfg2.win 0).blk t).view.emb y) = V c main_v13 (((cfg2.win 3).blk t).view.emb y)
    refine congrArg (V c main_v13) ?_
    funext a; apply Fin.ext
    match a with
    | ⟨0, _⟩ => show win2_0.index t (0 : Fin 2) * 8000 + 1 * (y 0).val = win2_3.index t (0 : Fin 2) * 8000 + 1 * (y 0).val; omega
    | ⟨1, _⟩ => show win2_0.index t (1 : Fin 2) * 128 + 1 * (y 1).val = win2_3.index t (1 : Fin 2) * 128 + 1 * (y 1).val; omega
  · intro q
    show V c main_v50 (((cfg2.win 1).blk t).view.emb (ix2 (y 0) q))
      = V c main_v50 (ix2 ((((cfg2.win 3).blk t).view.emb y) 0) q)
    refine congrArg (V c main_v50) ?_
    funext a; apply Fin.ext
    match a with
    | ⟨0, _⟩ => show win2_1.index t (0 : Fin 2) * 8000 + 1 * (y 0).val = win2_3.index t (0 : Fin 2) * 8000 + 1 * (y 0).val; omega
    | ⟨1, _⟩ => show win2_1.index t (1 : Fin 2) * 128 + 1 * q.val = q.val; omega
  · apply Fin.ext
    show (y 1).val = win2_3.index t (1 : Fin 2) * 128 + 1 * (y 1).val
    omega
  · rw [hw]

/-- An entry of the array is in point t's block iff each coordinate is in the block's range on its axis. -/
theorem mem_blk (t : Fin cfg2.N) (i : S800000x128.Idx) :
    i ∈ ((cfg2.win 3).blk t).view.set ↔ ∀ a : Fin 2, win2_3.index t a * S8000x128.size a ≤ (i a).val
      ∧ (i a).val < win2_3.index t a * S8000x128.size a + S8000x128.size a := by
  show i ∈ ((View.whole main_v51).slice (win2_3.rect t)).set ↔ _
  rw [View.set_slice_whole, Rect.mem_set_unit]
  exact Iff.rfl

/-- Row r of the array is written back by point r / 8000. -/
theorem cover (i : S800000x128.Idx) :
    ∃ t : Fin cfg2.N, (cfg2.win 3).flush t = true ∧ i ∈ ((cfg2.win 3).blk t).view.set := by
  have hi0 : (i 0).val < 800000 := (i 0).isLt
  have hi1 : (i 1).val < 128 := (i 1).isLt
  have hN : (i 0).val / 8000 < cfg2.N := by
    show (i 0).val / 8000 < grid2.N
    rw [N_2]; omega
  refine ⟨⟨(i 0).val / 8000, hN⟩, flush2_3 _, ?_⟩
  rw [mem_blk]
  obtain ⟨-, -, -, -, -, -, e30, e31⟩ := idx_facts ⟨(i 0).val / 8000, hN⟩
  intro a
  match a with
  | ⟨0, _⟩ =>
    show win2_3.index ⟨(i 0).val / 8000, hN⟩ (0 : Fin 2) * 8000 ≤ (i 0).val
      ∧ (i 0).val < win2_3.index ⟨(i 0).val / 8000, hN⟩ (0 : Fin 2) * 8000 + 8000
    rw [e30]
    show (i 0).val / 8000 * 8000 ≤ (i 0).val ∧ (i 0).val < (i 0).val / 8000 * 8000 + 8000
    omega
  | ⟨1, _⟩ =>
    show win2_3.index ⟨(i 0).val / 8000, hN⟩ (1 : Fin 2) * 128 ≤ (i 1).val
      ∧ (i 1).val < win2_3.index ⟨(i 0).val / 8000, hN⟩ (1 : Fin 2) * 128 + 128
    rw [e31]
    omega

/-- After the third launch its output array holds the edge update of the arrays the launch found. -/
theorem arr (c : Dev nD) :
    (dat2 (F := Ideal) V c).arrAt 3 cfg2.N
      = edgeUpd (n := 800000) (K := 128) (c := 128) (V c main_v13) (V c main_v50) (V c main_arg6) :=
  (dat2 V c).arrAt_eq_of_cover 3 _ (fun t _ => flushed_eq V c t) cover

end Cert.Proof.Region2

end
-- ==== Proof.Region3.lean ====
/-
  The fourth launch: 10 grid points, point t computing rows 5000·t … 5000·t + 4999 of the node layer from the same rows of the
  node features and of the aggregated messages, the two whole weight stacks and the bias row.
-/
import proofs.«137759_j73443940762169_1_alg».proof.Proof.Gen.KernelIdeal.Frame
import proofs.«137759_j73443940762169_1_alg».proof.Proof.LibJoinDot
import Idealize.ShloMosaic.Lib.Pipeline.Value

set_option maxRecDepth 16384

noncomputable section

namespace Cert.Proof.Region3

open Cert.KernelIdeal Cert.KernelIdeal.Gen Idealize.ShloMosaic Idealize.ShloMosaic.TcCoe Idealize.ShloMosaic.ValueIdx
open Cert.Proof.Entry Cert.Lib.DotRowsCols Idealize.SL.Sem
open Idealize.ShloMosaic.Pipeline (Dat)

variable (V : (c : Dev nD) → (b : Ref sig .tc) → Buf (Elt Ideal) ((c : Thread nD τ).loc b))

/-- The offset of a store of the whole buffer. -/
theorem zeroOff : (![0, 0] : Fin 2 → Nat) = fun _ => 0 := funext fun a => by fin_cases a <;> rfl

/-- The bias array the body adds repeats the single bias row down the 5000 rows. -/
theorem bias_rows (x4 : Vec Ideal S1x128 .f32) (j : S5000x128.Idx) :
    broadcastTo S5000x128 x4 broadcasts_S1x128_S5000x128 j = x4 (ix2 0 (j 1)) := by
  refine broadcastTo_apply x4 broadcasts_S1x128_S5000x128 j (ix2 0 (j 1)) fun a => ?_
  match a with
  | ⟨0, _⟩ => rfl
  | ⟨1, _⟩ => rfl

/-- The body's payload is the node layer of the blocks it loads. -/
theorem pay_eq (x0 : Vec Ideal S5000x133 .f32) (x1 : Vec Ideal S5000x128 .f32) (x2 : Vec Ideal S133x128 .f32)
    (x3 : Vec Ideal S128x128 .f32) (x4 : Vec Ideal S1x128 .f32) :
    k3_pay1 (F := Ideal) x0 x1 x2 x3 x4 = nodeUpd (n := 5000) (a := 133) (b := 128) (c := 128) x0 x1 x2 x3 x4 := by
  unfold k3_pay1
  simp only [shapeCast_self]
  exact vec_nodeUpd dot_S5000x133_S133x128_S5000x128_1_0_0_1_n_n ⟨rfl, rfl, rfl, rfl, rfl, rfl⟩
    dot_S5000x128_S128x128_S5000x128_1_0_0_1_n_n ⟨rfl, rfl, rfl, rfl, rfl, rfl⟩ x0 x1 x2 x3 x4
    (broadcastTo S5000x128 x4 broadcasts_S1x128_S5000x128) (bias_rows x4)

/-- The index maps over the grid: the row-blocked windows sit at block (t, 0), the weights and the bias at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The block of the first weight stack is the whole stack. -/
theorem wblk2 (c : Dev nD) (t : Fin cfg3.N) : iblk3 V c 2 t = V c main_v55 := by
  obtain ⟨-, -, -, -, e20, e21, -⟩ := idx_facts t
  funext z
  show V c main_v55 (((cfg3.win 2).blk t).view.emb z) = V c main_v55 z
  refine congrArg (V c main_v55) ?_
  funext a; apply Fin.ext
  match a with
  | ⟨0, _⟩ => show win3_2.index t (0 : Fin 2) * 133 + 1 * (z 0).val = (z 0).val; omega
  | ⟨1, _⟩ => show win3_2.index t (1 : Fin 2) * 128 + 1 * (z 1).val = (z 1).val; omega

/-- The block of the second weight stack is the whole stack. -/
theorem wblk3 (c : Dev nD) (t : Fin cfg3.N) : iblk3 V c 3 t = V c main_v56 := by
  obtain ⟨-, -, -, -, -, -, e30, e31, -⟩ := idx_facts t
  funext z
  show V c main_v56 (((cfg3.win 3).blk t).view.emb z) = V c main_v56 z
  refine congrArg (V c main_v56) ?_
  funext a; apply Fin.ext
  match a with
  | ⟨0, _⟩ => show win3_3.index t (0 : Fin 2) * 128 + 1 * (z 0).val = (z 0).val; omega
  | ⟨1, _⟩ => show win3_3.index t (1 : Fin 2) * 128 + 1 * (z 1).val = (z 1).val; omega

/-- The block of the bias row is the whole row. -/
theorem wblk4 (c : Dev nD) (t : Fin cfg3.N) : iblk3 V c 4 t = V c main_v57 := by
  obtain ⟨-, -, -, -, -, -, -, -, e40, e41, -⟩ := idx_facts t
  funext z
  show V c main_v57 (((cfg3.win 4).blk t).view.emb z) = V c main_v57 z
  refine congrArg (V c main_v57) ?_
  funext a; apply Fin.ext
  match a with
  | ⟨0, _⟩ => show win3_4.index t (0 : Fin 2) * 1 + 1 * (z 0).val = (z 0).val; omega
  | ⟨1, _⟩ => show win3_4.index t (1 : Fin 2) * 128 + 1 * (z 1).val = (z 1).val; omega

/-- An entry of the node layer read on a block of rows, with the same weights and bias, is the entry of the layer of
    the whole arrays at the row the block's row comes from. -/
theorem nodeUpd_blocks {n n' a b c : Nat} (x : Mat n a) (x' : Mat n' a) (y : Mat n b) (y' : Mat n' b)
    (wx wx' : Mat a c) (wy wy' : Mat b c) (bias bias' : Mat 1 c)
    (j : (⟨2, ![n, c]⟩ : Shape).Idx) (j' : (⟨2, ![n', c]⟩ : Shape).Idx)
    (hx : ∀ q, x (ix2 (j 0) q) = x' (ix2 (j' 0) q)) (hy : ∀ q, y (ix2 (j 0) q) = y' (ix2 (j' 0) q))
    (hwx : wx = wx') (hwy : wy = wy') (hb : bias = bias') (hc : j 1 = j' 1) :
    nodeUpd x y wx wy bias j = nodeUpd x' y' wx' wy' bias' j' := by
  subst hwx hwy hb
  exact nodeUpd_rows x x' y y' wx wy bias j j' hx hy hc

/-- What point t writes back is block t of the node layer of the whole arrays. -/
theorem flushed_eq (c : Dev nD) (t : Fin cfg3.N) :
    (dat3 (F := Ideal) V c).flushed 5 t = ((cfg3.win 5).blk t).view.read (Elt Ideal)
      (nodeUpd (n := 50000) (a := 133) (b := 128) (c := 128) (V c main_arg0) (V c main_v54) (V c main_v55) (V c main_v56) (V c main_v57)) := by
  show (cfg3.win 5).cut (grid3.coords t) ((dat3 V c).after 5 t) = _
  rw [after3_5]
  unfold out3_5
  rw [View.canon_unit_zero zeroOff]
  simp only [View.ld_unit_zero (S := S5000x133) zeroOff, View.ld_unit_zero (S := S5000x128) zeroOff,
    View.ld_unit_zero (S := S133x128) zeroOff, View.ld_unit_zero (S := S128x128) zeroOff,
    View.ld_unit_zero (S := S1x128) zeroOff]
  rw [pay_eq]
  obtain ⟨e00, e01, e10, e11, -, -, -, -, -, -, e50, e51⟩ := idx_facts t
  funext y
  show nodeUpd (n := 5000) (a := 133) (b := 128) (c := 128) (iblk3 V c 0 t) (iblk3 V c 1 t) (iblk3 V c 2 t) (iblk3 V c 3 t) (iblk3 V c 4 t) y
    = nodeUpd (n := 50000) (a := 133) (b := 128) (c := 128) (V c main_arg0) (V c main_v54) (V c main_v55) (V c main_v56) (V c main_v57)
        (((cfg3.win 5).blk t).view.emb y)
  refine nodeUpd_blocks (iblk3 V c 0 t) (V c main_arg0) (iblk3 V c 1 t) (V c main_v54) (iblk3 V c 2 t) (V c main_v55)
    (iblk3 V c 3 t) (V c main_v56) (iblk3 V c 4 t) (V c main_v57) y (((cfg3.win 5).blk t).view.emb y) ?_ ?_
    (wblk2 V c t) (wblk3 V c t) (wblk4 V c t) ?_
  · intro q
    show V c main_arg0 (((cfg3.win 0).blk t).view.emb (ix2 (y 0) q)) = V c main_arg0 (ix2 ((((cfg3.win 5).blk t).view.emb y) 0) q)
    refine congrArg (V c main_arg0) ?_
    funext a; apply Fin.ext
    match a with
    | ⟨0, _⟩ => show win3_0.index t (0 : Fin 2) * 5000 + 1 * (y 0).val = win3_5.index t (0 : Fin 2) * 5000 + 1 * (y 0).val; omega
    | ⟨1, _⟩ => show win3_0.index t (1 : Fin 2) * 133 + 1 * q.val = q.val; omega
  · intro q
    show V c main_v54 (((cfg3.win 1).blk t).view.emb (ix2 (y 0) q)) = V c main_v54 (ix2 ((((cfg3.win 5).blk t).view.emb y) 0) q)
    refine congrArg (V c main_v54) ?_
    funext a; apply Fin.ext
    match a with
    | ⟨0, _⟩ => show win3_1.index t (0 : Fin 2) * 5000 + 1 * (y 0).val = win3_5.index t (0 : Fin 2) * 5000 + 1 * (y 0).val; omega
    | ⟨1, _⟩ => show win3_1.index t (1 : Fin 2) * 128 + 1 * q.val = q.val; omega
  · apply Fin.ext
    show (y 1).val = win3_5.index t (1 : Fin 2) * 128 + 1 * (y 1).val
    omega

/-- An index of the output array is in point t's block iff each coordinate is in the block's range on its axis. -/
theorem mem_blk (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v58).slice (win3_5.rect t)).set ↔ _
  rw [View.set_slice_whole, Rect.mem_set_unit]
  exact Iff.rfl

/-- Row r of the output array lies in the block of point r / 5000, which is written back. -/
theorem cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, by show (i 0).val / 5000 < grid3.N; rw [N_3]; omega⟩, rfl⟩
  obtain ⟨-, -, -, -, -, -, -, -, -, -, e50, e51⟩ := idx_facts t
  refine ⟨t, flush3_5 t, ?_⟩
  rw [mem_blk]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 128 ≤ (i 1).val ∧ (i 1).val < win3_5.index t (1 : Fin 2) * 128 + 128
    omega

/-- After the fourth launch its output array holds the node layer of the arrays the launch found. -/
theorem arr (c : Dev nD) :
    (dat3 (F := Ideal) V c).arrAt 5 cfg3.N
      = nodeUpd (n := 50000) (a := 133) (b := 128) (c := 128) (V c main_arg0) (V c main_v54) (V c main_v55) (V c main_v56) (V c main_v57) :=
  (dat3 V c).arrAt_eq_of_cover 5 _ (fun t _ => flushed_eq V c t) cover

end Cert.Proof.Region3

end
-- ==== Proof.FoldK.lean ====
/-
  The kernel program's run, read boundary by boundary.  Between launches the program applies host operations to the
  buffers; a launch replaces its output array and leaves every other buffer alone.  Walking from the launch memory to the
  last boundary, each buffer the encoder needs holds the stage of the encoder its name says: the gathered features and
  weight slices before the first launch, the initial messages after it, the directed messages before each update and
  the updated messages after it, the aggregated messages and the node layer's operands before the last launch, the node
  attributes after it, and the two results after the last host operations.
-/
import proofs.«137759_j73443940762169_1_alg».proof.Proof.Gen.KernelIdeal.Frame
import proofs.«137759_j73443940762169_1_alg».proof.Proof.ChainsK
import proofs.«137759_j73443940762169_1_alg».proof.Proof.Region0
import proofs.«137759_j73443940762169_1_alg».proof.Proof.Region1
import proofs.«137759_j73443940762169_1_alg».proof.Proof.Region2
import proofs.«137759_j73443940762169_1_alg».proof.Proof.Region3
import Idealize.ShloMosaic.Lib.StableHlo.Run

set_option maxRecDepth 16384

noncomputable section

namespace Cert.Proof.FoldK

open Cert.KernelIdeal Cert.KernelIdeal.Gen Idealize.ShloMosaic Idealize.ShloMosaic.TcCoe Idealize.SL.Sem
open Idealize.ShloMosaic.StableHlo Cert.Proof.Entry

variable (m : (ℓ : Loc nD τ sig) → Buf (Elt Ideal) ℓ) (ρ : Dev nD → PrngReg)

/-! ## What a host stretch leaves alone

Each stretch of host operations writes its own results and nothing else: a reference outside the stretch's results
holds after it what it held before. -/

/-- The results of the host operations before the first launch. -/
def wr0 : List (Ref sig .tc) := [main_v0, main_v1, main_v2, main_v3, main_c, main_v4, main_v5, main_c_0, main_v6, main_v7, main_v8, main_v9, main_v10, main_v11, main_v12]
/-- The results of the host operations between the first and second launches. -/
def wr1 : List (Ref sig .tc) := [main_cst, main_v14, main_v15, main_v16, main_c_1, main_v17, main_v18, main_c_2, main_v19, main_v20, main_v21, main_v22, main_v23, main_c_3, main_v24, main_v25, main_c_4, main_v26, main_v27, main_v28, main_v29, main_v30, main_v31]
/-- The results of the host operations between the second and third launches. -/
def wr2 : List (Ref sig .tc) := [main_cst_5, main_v33, main_v34, main_v35, main_c_6, main_v36, main_v37, main_c_7, main_v38, main_v39, main_v40, main_v41, main_v42, main_c_8, main_v43, main_v44, main_c_9, main_v45, main_v46, main_v47, main_v48, main_v49, main_v50]
/-- The results of the host operations between the third and fourth launches. -/
def wr3 : List (Ref sig .tc) := [main_cst_10, main_v52, main_v53, main_v54, main_v55, main_v56, main_v57]
/-- The results of the host operations after the last launch. -/
def wr4 : List (Ref sig .tc) := [main_cst_11, main_v59, main_v60, main_v61, main_cst_12, main_v62, main_cst_13, main_v63, main_v64, main_v65, main_cst_14, main_v66, main_v67, main_v68, main_v69, main_v70, main_v71, main_v72, main_v73, main_cst_15, main_v74, main_v75, main_v76, main_v77, main_v78, main_v79]

theorem keep0 (V : Valuation τ sig (Elt Ideal)) {b : Ref sig .tc} (hb : b ∉ wr0) :
    StableHlo.after hostOps0 V (Proc.devRef .tc b) = V (Proc.devRef .tc b) :=
  StableHlo.after_of_writes_sub hostOps0 V (by
    simp only [hostOps0, wr0, List.Forall, StableHlo.nullary_writes, StableHlo.unary_writes, StableHlo.binary_writes,
      StableHlo.ternary_writes, StableHlo.reshape_writes, Finset.singleton_subset_iff, List.mem_toFinset, List.map_cons,
      List.map_nil, List.mem_cons, true_or, or_true, and_self]) hb

theorem keep1 (V : Valuation τ sig (Elt Ideal)) {b : Ref sig .tc} (hb : b ∉ wr1) :
    StableHlo.after hostOps1 V (Proc.devRef .tc b) = V (Proc.devRef .tc b) :=
  StableHlo.after_of_writes_sub hostOps1 V (by
    simp only [hostOps1, wr1, List.Forall, StableHlo.nullary_writes, StableHlo.unary_writes, StableHlo.binary_writes,
      StableHlo.ternary_writes, StableHlo.reshape_writes, Finset.singleton_subset_iff, List.mem_toFinset, List.map_cons,
      List.map_nil, List.mem_cons, true_or, or_true, and_self]) hb

theorem keep2 (V : Valuation τ sig (Elt Ideal)) {b : Ref sig .tc} (hb : b ∉ wr2) :
    StableHlo.after hostOps2 V (Proc.devRef .tc b) = V (Proc.devRef .tc b) :=
  StableHlo.after_of_writes_sub hostOps2 V (by
    simp only [hostOps2, wr2, List.Forall, StableHlo.nullary_writes, StableHlo.unary_writes, StableHlo.binary_writes,
      StableHlo.ternary_writes, StableHlo.reshape_writes, Finset.singleton_subset_iff, List.mem_toFinset, List.map_cons,
      List.map_nil, List.mem_cons, true_or, or_true, and_self]) hb

theorem keep3 (V : Valuation τ sig (Elt Ideal)) {b : Ref sig .tc} (hb : b ∉ wr3) :
    StableHlo.after hostOps3 V (Proc.devRef .tc b) = V (Proc.devRef .tc b) :=
  StableHlo.after_of_writes_sub hostOps3 V (by
    simp only [hostOps3, wr3, List.Forall, StableHlo.nullary_writes, StableHlo.unary_writes, StableHlo.binary_writes,
      StableHlo.ternary_writes, StableHlo.reshape_writes, Finset.singleton_subset_iff, List.mem_toFinset, List.map_cons,
      List.map_nil, List.mem_cons, true_or, or_true, and_self]) hb

theorem keep4 (V : Valuation τ sig (Elt Ideal)) {b : Ref sig .tc} (hb : b ∉ wr4) :
    StableHlo.after hostOps4 V (Proc.devRef .tc b) = V (Proc.devRef .tc b) :=
  StableHlo.after_of_writes_sub hostOps4 V (by
    simp only [hostOps4, wr4, List.Forall, StableHlo.nullary_writes, StableHlo.unary_writes, StableHlo.binary_writes,
      StableHlo.ternary_writes, StableHlo.reshape_writes, Finset.singleton_subset_iff, List.mem_toFinset, List.map_cons,
      List.map_nil, List.mem_cons, true_or, or_true, and_self]) hb

/-! ## A reference nothing has touched yet holds what the launch memory holds -/

theorem U2 (c : Dev nD) (b : Ref sig .tc) (h0 : b ∉ wr0) (r0 : ∀ w, Pipeline.arrRef spec0 w ≠ b) :
    W2 m ρ c (Proc.devRef .tc b) = m ((c : Thread nD τ).loc b) :=
  (W2_of_ne m ρ c b r0).trans (keep0 _ h0)
theorem U4 (c : Dev nD) (b : Ref sig .tc) (h0 : b ∉ wr0) (r0 : ∀ w, Pipeline.arrRef spec0 w ≠ b)
    (h1 : b ∉ wr1) (r1 : ∀ w, Pipeline.arrRef spec1 w ≠ b) :
    W4 m ρ c (Proc.devRef .tc b) = m ((c : Thread nD τ).loc b) :=
  (W4_of_ne m ρ c b r1).trans ((keep1 _ h1).trans (U2 m ρ c b h0 r0))
theorem U6 (c : Dev nD) (b : Ref sig .tc) (h0 : b ∉ wr0) (r0 : ∀ w, Pipeline.arrRef spec0 w ≠ b)
    (h1 : b ∉ wr1) (r1 : ∀ w, Pipeline.arrRef spec1 w ≠ b) (h2 : b ∉ wr2) (r2 : ∀ w, Pipeline.arrRef spec2 w ≠ b) :
    W6 m ρ c (Proc.devRef .tc b) = m ((c : Thread nD τ).loc b) :=
  (W6_of_ne m ρ c b r2).trans ((keep2 _ h2).trans (U4 m ρ c b h0 r0 h1 r1))
theorem U8 (c : Dev nD) (b : Ref sig .tc) (h0 : b ∉ wr0) (r0 : ∀ w, Pipeline.arrRef spec0 w ≠ b)
    (h1 : b ∉ wr1) (r1 : ∀ w, Pipeline.arrRef spec1 w ≠ b) (h2 : b ∉ wr2) (r2 : ∀ w, Pipeline.arrRef spec2 w ≠ b)
    (h3 : b ∉ wr3) (r3 : ∀ w, Pipeline.arrRef spec3 w ≠ b) :
    W8 m ρ c (Proc.devRef .tc b) = m ((c : Thread nD τ).loc b) :=
  (W8_of_ne m ρ c b r3).trans ((keep3 _ h3).trans (U6 m ρ c b h0 r0 h1 r1 h2 r2))

/-! ## Before the first launch -/

theorem W1_src (c : Dev nD) : W1 m ρ c (Proc.devRef .tc main_v1) = K.src (m ((c : Thread nD τ).loc main_arg1)) := by
  show StableHlo.after hostOps0 (W0 m ρ c) (Proc.devRef .tc main_v1) = _
  after_results
  rfl
theorem W1_dst (c : Dev nD) : W1 m ρ c (Proc.devRef .tc main_v3) = K.dst (m ((c : Thread nD τ).loc main_arg1)) := by
  show StableHlo.after hostOps0 (W0 m ρ c) (Proc.devRef .tc main_v3) = _
  after_results
  rfl
theorem W1_xsrc (c : Dev nD) : W1 m ρ c (Proc.devRef .tc main_v10) = K.xSrc (m ((c : Thread nD τ).loc main_arg0)) (m ((c : Thread nD τ).loc main_arg1)) := by
  show StableHlo.after hostOps0 (W0 m ρ c) (Proc.devRef .tc main_v10) = _
  after_results
  rfl
theorem W1_w1x (c : Dev nD) : W1 m ρ c (Proc.devRef .tc main_v11) = K.w1x (m ((c : Thread nD τ).loc main_arg5)) := by
  show StableHlo.after hostOps0 (W0 m ρ c) (Proc.devRef .tc main_v11) = _
  after_results
  rfl
theorem W1_w1e (c : Dev nD) : W1 m ρ c (Proc.devRef .tc main_v12) = K.w1e (m ((c : Thread nD τ).loc main_arg5)) := by
  show StableHlo.after hostOps0 (W0 m ρ c) (Proc.devRef .tc main_v12) = _
  after_results
  rfl

/-! ## The layers at equal operands -/

theorem edgeInit_congr {n a b c : Nat} {x x' : Mat n a} {y y' : Mat n b} {wx wx' : Mat a c} {wy wy' : Mat b c}
    (h1 : x = x') (h2 : y = y') (h3 : wx = wx') (h4 : wy = wy') : edgeInit x y wx wy = edgeInit x' y' wx' wy' := by
  rw [h1, h2, h3, h4]
theorem edgeUpd_congr {n K c : Nat} {h h' : Mat n c} {mm mm' : Mat n K} {w w' : Mat K c}
    (h1 : h = h') (h2 : mm = mm') (h3 : w = w') : edgeUpd h mm w = edgeUpd h' mm' w' := by
  rw [h1, h2, h3]
theorem nodeUpd_congr {n a b c : Nat} {x x' : Mat n a} {y y' : Mat n b} {wx wx' : Mat a c} {wy wy' : Mat b c}
    {bias bias' : Mat 1 c} (h1 : x = x') (h2 : y = y') (h3 : wx = wx') (h4 : wy = wy') (h5 : bias = bias') :
    nodeUpd x y wx wy bias = nodeUpd x' y' wx' wy' bias' := by
  rw [h1, h2, h3, h4, h5]

/-! ## The stages -/

theorem W2_h0 (c : Dev nD) : W2 m ρ c (Proc.devRef .tc main_v13) = K.h0 (m ((c : Thread nD τ).loc main_arg0)) (m ((c : Thread nD τ).loc main_arg1)) (m ((c : Thread nD τ).loc main_arg3)) (m ((c : Thread nD τ).loc main_arg5)) := by
  refine (W2_arr m ρ c 4).trans ((Cert.Proof.Region0.arr (V1 m ρ) c).trans ?_)
  exact edgeInit_congr (W1_xsrc m ρ c) (keep0 _ (by decide)) (W1_w1x m ρ c) (W1_w1e m ρ c)

/-- The edge sources and targets after the first launch are the edge list's two rows. -/
theorem W2_src (c : Dev nD) : W2 m ρ c (Proc.devRef .tc main_v1) = K.src (m ((c : Thread nD τ).loc main_arg1)) :=
  (W2_of_ne m ρ c main_v1 (by decide)).trans (W1_src m ρ c)
theorem W2_dst (c : Dev nD) : W2 m ρ c (Proc.devRef .tc main_v3) = K.dst (m ((c : Thread nD τ).loc main_arg1)) :=
  (W2_of_ne m ρ c main_v3 (by decide)).trans (W1_dst m ρ c)

set_option maxHeartbeats 1000000 in
theorem W3_msg (c : Dev nD) : W3 m ρ c (Proc.devRef .tc main_v31)
    = K.msg (K.h0 (m ((c : Thread nD τ).loc main_arg0)) (m ((c : Thread nD τ).loc main_arg1)) (m ((c : Thread nD τ).loc main_arg3)) (m ((c : Thread nD τ).loc main_arg5))) (m ((c : Thread nD τ).loc main_arg1)) (m ((c : Thread nD τ).loc main_arg2)) := by
  show StableHlo.after hostOps1 (W2 m ρ c) (Proc.devRef .tc main_v31) = _
  after_results_simp
  rw [W2_h0 m ρ c, W2_src m ρ c, W2_dst m ρ c, U2 m ρ c main_arg2 (by decide) (by decide)]
  rfl

/-- The initial messages and the update's weights when the second launch begins. -/
theorem W3_h0 (c : Dev nD) : W3 m ρ c (Proc.devRef .tc main_v13) = (K.h0 (m ((c : Thread nD τ).loc main_arg0)) (m ((c : Thread nD τ).loc main_arg1)) (m ((c : Thread nD τ).loc main_arg3)) (m ((c : Thread nD τ).loc main_arg5))) :=
  (keep1 _ (by decide)).trans (W2_h0 m ρ c)
theorem W3_arg6 (c : Dev nD) : W3 m ρ c (Proc.devRef .tc main_arg6) = (m ((c : Thread nD τ).loc main_arg6)) :=
  (keep1 _ (by decide)).trans (U2 m ρ c main_arg6 (by decide) (by decide))

theorem W4_h1 (c : Dev nD) : W4 m ρ c (Proc.devRef .tc main_v32)
    = K.h1 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) := by
  refine (W4_arr m ρ c 3).trans ((Cert.Proof.Region1.arr (V3 m ρ) c).trans ?_)
  exact edgeUpd_congr (W3_h0 m ρ c) (W3_msg m ρ c) (W3_arg6 m ρ c)

/-- The edge sources and targets after the second launch. -/
theorem W4_src (c : Dev nD) : W4 m ρ c (Proc.devRef .tc main_v1) = K.src (m ((c : Thread nD τ).loc main_arg1)) :=
  (W4_of_ne m ρ c main_v1 (by decide)).trans ((keep1 _ (by decide)).trans (W2_src m ρ c))
theorem W4_dst (c : Dev nD) : W4 m ρ c (Proc.devRef .tc main_v3) = K.dst (m ((c : Thread nD τ).loc main_arg1)) :=
  (W4_of_ne m ρ c main_v3 (by decide)).trans ((keep1 _ (by decide)).trans (W2_dst m ρ c))

set_option maxHeartbeats 1000000 in
theorem W5_msg (c : Dev nD) : W5 m ρ c (Proc.devRef .tc main_v50)
    = K.msg (K.h1 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))) (m ((c : Thread nD τ).loc main_arg1)) (m ((c : Thread nD τ).loc main_arg2)) := by
  show StableHlo.after hostOps2 (W4 m ρ c) (Proc.devRef .tc main_v50) = _
  after_results_simp
  rw [W4_h1 m ρ c, W4_src m ρ c, W4_dst m ρ c, U4 m ρ c main_arg2 (by decide) (by decide) (by decide) (by decide)]
  rfl

/-- The initial messages and the update's weights when the third launch begins: the second launch only read them. -/
theorem W5_h0 (c : Dev nD) : W5 m ρ c (Proc.devRef .tc main_v13) = (K.h0 (m ((c : Thread nD τ).loc main_arg0)) (m ((c : Thread nD τ).loc main_arg1)) (m ((c : Thread nD τ).loc main_arg3)) (m ((c : Thread nD τ).loc main_arg5))) :=
  (keep2 _ (by decide)).trans (((W4_arr m ρ c 0).trans (((dat1 (V3 m ρ) c).arrAt_in 0 rfl _).trans (A_eq1 (V3 m ρ) c 0))).trans
    (W3_h0 m ρ c))
theorem W5_arg6 (c : Dev nD) : W5 m ρ c (Proc.devRef .tc main_arg6) = (m ((c : Thread nD τ).loc main_arg6)) :=
  (keep2 _ (by decide)).trans (((W4_arr m ρ c 2).trans (((dat1 (V3 m ρ) c).arrAt_in 2 rfl _).trans (A_eq1 (V3 m ρ) c 2))).trans
    (W3_arg6 m ρ c))

theorem W6_h2 (c : Dev nD) : W6 m ρ c (Proc.devRef .tc main_v51)
    = K.h2 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) := by
  refine (W6_arr m ρ c 3).trans ((Cert.Proof.Region2.arr (V5 m ρ) c).trans ?_)
  exact edgeUpd_congr (W5_h0 m ρ c) (W5_msg m ρ c) (W5_arg6 m ρ c)

/-- The edge targets after the third launch. -/
theorem W6_dst (c : Dev nD) : W6 m ρ c (Proc.devRef .tc main_v3) = K.dst (m ((c : Thread nD τ).loc main_arg1)) :=
  (W6_of_ne m ρ c main_v3 (by decide)).trans ((keep2 _ (by decide)).trans (W4_dst m ρ c))

theorem W7_agg (c : Dev nD) : W7 m ρ c (Proc.devRef .tc main_v54)
    = K.agg (K.h2 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))) (m ((c : Thread nD τ).loc main_arg1)) := by
  show StableHlo.after hostOps3 (W6 m ρ c) (Proc.devRef .tc main_v54) = _
  after_results_simp
  rw [W6_h2 m ρ c, W6_dst m ρ c]
  rfl

/-- The node layer's operands when the last launch begins: the two slices of its weights, its bias as a row, and the node features. -/
theorem W7_w3x (c : Dev nD) : W7 m ρ c (Proc.devRef .tc main_v55) = K.w3x (m ((c : Thread nD τ).loc main_arg7)) := by
  show StableHlo.after hostOps3 (W6 m ρ c) (Proc.devRef .tc main_v55) = _
  after_results_simp
  rw [U6 m ρ c main_arg7 (by decide) (by decide) (by decide) (by decide) (by decide) (by decide)]
  rfl
theorem W7_w3v (c : Dev nD) : W7 m ρ c (Proc.devRef .tc main_v56) = K.w3v (m ((c : Thread nD τ).loc main_arg7)) := by
  show StableHlo.after hostOps3 (W6 m ρ c) (Proc.devRef .tc main_v56) = _
  after_results_simp
  rw [U6 m ρ c main_arg7 (by decide) (by decide) (by decide) (by decide) (by decide) (by decide)]
  rfl
theorem W7_bias (c : Dev nD) : W7 m ρ c (Proc.devRef .tc main_v57) = K.biasRow (m ((c : Thread nD τ).loc main_arg8)) := by
  show StableHlo.after hostOps3 (W6 m ρ c) (Proc.devRef .tc main_v57) = _
  after_results_simp
  rw [U6 m ρ c main_arg8 (by decide) (by decide) (by decide) (by decide) (by decide) (by decide)]
  rfl
theorem W7_arg0 (c : Dev nD) : W7 m ρ c (Proc.devRef .tc main_arg0) = (m ((c : Thread nD τ).loc main_arg0)) :=
  (keep3 _ (by decide)).trans (U6 m ρ c main_arg0 (by decide) (by decide) (by decide) (by decide) (by decide) (by decide))

theorem W8_nodeAttr (c : Dev nD) : W8 m ρ c (Proc.devRef .tc main_v58)
    = K.nodeAttr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) := by
  refine (W8_arr m ρ c 5).trans ((Cert.Proof.Region3.arr (V7 m ρ) c).trans ?_)
  exact nodeUpd_congr (W7_arg0 m ρ c) (W7_agg m ρ c) (W7_w3x m ρ c) (W7_w3v m ρ c) (W7_bias m ρ c)

/-! ## The two results -/

set_option maxHeartbeats 1000000 in
/-- The second result: the per-graph mean of the node attributes. -/
theorem pooled_eq (c : Dev nD) : W9 m ρ c (Proc.devRef .tc main_v69)
    = K.pooled (K.nodeAttr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) (m ((c : Thread nD τ).loc main_arg4)) := by
  show StableHlo.after hostOps4 (W8 m ρ c) (Proc.devRef .tc main_v69) = _
  after_results_simp
  rw [W8_nodeAttr m ρ c, U8 m ρ c main_arg4 (by decide) (by decide) (by decide) (by decide) (by decide) (by decide) (by decide) (by decide)]
  rfl

set_option maxHeartbeats 1000000 in
/-- The first result: the readout of the per-graph means. -/
theorem pred_eq (c : Dev nD) : W9 m ρ c (Proc.devRef .tc main_v79)
    = K.pred (K.pooled (K.nodeAttr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) (m ((c : Thread nD τ).loc main_arg4)))
        (m ((c : Thread nD τ).loc main_arg9)) (m ((c : Thread nD τ).loc main_arg10)) (m ((c : Thread nD τ).loc main_arg11)) (m ((c : Thread nD τ).loc main_arg12)) := by
  show StableHlo.after hostOps4 (W8 m ρ c) (Proc.devRef .tc main_v79) = _
  after_results_simp
  rw [W8_nodeAttr m ρ c, U8 m ρ c main_arg4 (by decide) (by decide) (by decide) (by decide) (by decide) (by decide) (by decide) (by decide), U8 m ρ c main_arg9 (by decide) (by decide) (by decide) (by decide) (by decide) (by decide) (by decide) (by decide),
    U8 m ρ c main_arg10 (by decide) (by decide) (by decide) (by decide) (by decide) (by decide) (by decide) (by decide), U8 m ρ c main_arg11 (by decide) (by decide) (by decide) (by decide) (by decide) (by decide) (by decide) (by decide), U8 m ρ c main_arg12 (by decide) (by decide) (by decide) (by decide) (by decide) (by decide) (by decide) (by decide)]
  rfl

end Cert.Proof.FoldK

end
-- ==== Proof.ChainsR.lean ====
/-
  The reference's side of the same encoder: the shared parts (edge rows, index columns, gathers, sums at target nodes,
  directed message, per-graph mean, readout) in the reference program's own vocabulary, and its three dense layers as
  the host forms them — the two row operands joined along their columns, one product with the stacked weights, the
  maximum with a zero array.
-/
import proofs.«137759_j73443940762169_1_alg».proof.Proof.Gen.ReferenceIdeal
import proofs.«137759_j73443940762169_1_alg».proof.Proof.LibJoinDot

noncomputable section

namespace Cert.Proof.R

open Cert.ReferenceIdeal Cert.ReferenceIdeal.Gen Idealize.ShloMosaic Cert.Proof.Entry

/-- An array of 32-bit integers of shape s. -/
abbrev I32 (s : Shape) : Type := IVec s 32
/-- An array of floats of shape s, at the exact reals. -/
abbrev F32 (s : Shape) : Type := FVec Ideal s .f32

/-- Each edge's source node: row 0 of the edge list. -/
def src (ei : I32 S2x800000) : I32 S800000 :=
  shapeCast _ (extractStridedSlice S1x800000 ![0, 0] ei slices_S2x800000_S1x800000_0_0) shapeCasts_S1x800000_S800000

/-- Each edge's target node: row 1 of the edge list. -/
def dst (ei : I32 S2x800000) : I32 S800000 :=
  shapeCast _ (extractStridedSlice S1x800000 ![1, 0] ei slices_S2x800000_S1x800000_1_0) shapeCasts_S1x800000_S800000

/-- A vector of indices as a one-column array. -/
def col (i : I32 S800000) : I32 S800000x1 := broadcastInDim S800000x1 ![0] bcast_S800000_S800000x1_0 i

/-- Node indices with a negative one wrapped once around the 50000 nodes, as a column. -/
def nodeCol (i : I32 S800000) : I32 S800000x1 :=
  col (select (cmpi .slt i (broadcastInDim S800000 ![] bcast_S_S800000 (constantI S_ 32 0#32)))
    (addi i (broadcastInDim S800000 ![] bcast_S_S800000 (constantI S_ 32 50000#32))) i)

/-- Edge indices with a negative one wrapped once around the 800000 edges, as a column. -/
def edgeCol (i : I32 S800000) : I32 S800000x1 :=
  col (select (cmpi .slt i (broadcastInDim S800000 ![] bcast_S_S800000 (constantI S_ 32 0#32)))
    (addi i (broadcastInDim S800000 ![] bcast_S_S800000 (constantI S_ 32 800000#32))) i)

/-- The node features gathered at every edge's source. -/
def xSrc (x : F32 S50000x133) (ei : I32 S2x800000) : F32 S800000x133 :=
  Host.gather gather_S50000x133_S800000x1_S800000x133_1_0_n_n_0_1_1133 x (nodeCol (src ei))

/-- Edge messages summed at their target nodes. -/
def agg (h : F32 S800000x128) (ei : I32 S2x800000) : F32 S50000x128 :=
  Host.scatterAdd scatter_S50000x128_S800000x1_S800000x128_1_0_0_1
    (broadcastInDim S50000x128 ![] bcast_S_S50000x128 (constant S_ .f32 0x00000000#32)) (col (dst ei)) h

/-- The directed message into each edge: what arrives at its source node, less its reverse edge's message. -/
def msg (h : F32 S800000x128) (ei : I32 S2x800000) (rev : I32 S800000) : F32 S800000x128 :=
  subf (Host.gather gather_S50000x128_S800000x1_S800000x128_1_0_n_n_0_1_1128 (agg h ei) (nodeCol (src ei)))
    (Host.gather gather_S800000x128_S800000x1_S800000x128_1_0_n_n_0_1_1128 h (edgeCol rev))

/-- The mean of the node rows of each graph (an empty graph's count taken as one). -/
def pooled (na : F32 S50000x128) (batch : I32 S50000) : F32 S512x128 :=
  Host.divf
    (Host.scatterAdd scatter_S512x128_S50000x1_S50000x128_1_0_0_1
      (broadcastInDim S512x128 ![] bcast_S_S512x128 (constant S_ .f32 0x00000000#32))
      (broadcastInDim S50000x1 ![0] bcast_S50000_S50000x1_0 batch) na)
    (broadcastInDim S512x128 ![0, 1] bcast_S512x1_S512x128_0_1
      (maximumf
        (Host.scatterAdd scatter_S512x1_S50000x1_S50000x1_1_0_0_1
          (broadcastInDim S512x1 ![] bcast_S_S512x1 (constant S_ .f32 0x00000000#32))
          (broadcastInDim S50000x1 ![0] bcast_S50000_S50000x1_0 batch)
          (broadcastInDim S50000x1 ![] bcast_S_S50000x1 (constant S_ .f32 0x3F800000#32)))
        (broadcastInDim S512x1 ![] bcast_S_S512x1 (constant S_ .f32 0x3F800000#32))))

/-- The readout: a hidden layer cut at zero, then one output per graph. -/
def pred (p : F32 S512x128) (M1w : F32 S128x128) (M1b : F32 S128) (M2w : F32 S128x1) (M2b : F32 S1) : F32 S512x1 :=
  addf
    (Host.dotGeneral dot_S512x128_S128x1_S512x1_1_0_0_1_n_n none
      (maximumf
        (addf (Host.dotGeneral dot_S512x128_S128x128_S512x128_1_0_0_1_n_n none p M1w)
          (broadcastInDim S512x128 ![0, 1] bcast_S1x128_S512x128_0_1 (broadcastInDim S1x128 ![1] bcast_S128_S1x128_1 M1b)))
        (broadcastInDim S512x128 ![] bcast_S_S512x128 (constant S_ .f32 0x00000000#32)))
      M2w)
    (broadcastInDim S512x1 ![0, 1] bcast_S1x1_S512x1_0_1 (broadcastInDim S1x1 ![1] bcast_S1_S1x1_1 M2b))

/-- The initial edge layer as the host forms it. -/
def layer0 (x : F32 S50000x133) (ei : I32 S2x800000) (ea : F32 S800000x14) (W1 : F32 S147x128) : F32 S800000x128 :=
  maximumf
    (Host.dotGeneral dot_S800000x147_S147x128_S800000x128_1_0_0_1_n_n none
      (concatenate S800000x147 1 [⟨S800000x133, xSrc x ei⟩, ⟨S800000x14, ea⟩] concatenates_S800000x133_S800000x14_S800000x147_d1) W1)
    (broadcastInDim S800000x128 ![] bcast_S_S800000x128 (constant S_ .f32 0x00000000#32))

/-- The edge update as the host forms it. -/
def layerU (h : F32 S800000x128) (mm : F32 S800000x128) (W2 : F32 S128x128) : F32 S800000x128 :=
  maximumf (addf h (Host.dotGeneral dot_S800000x128_S128x128_S800000x128_1_0_0_1_n_n none mm W2))
    (broadcastInDim S800000x128 ![] bcast_S_S800000x128 (constant S_ .f32 0x00000000#32))

/-- The node layer as the host forms it. -/
def layerN (x : F32 S50000x133) (vm : F32 S50000x128) (W3 : F32 S261x128) (b : F32 S128) : F32 S50000x128 :=
  maximumf
    (addf
      (Host.dotGeneral dot_S50000x261_S261x128_S50000x128_1_0_0_1_n_n none
        (concatenate S50000x261 1 [⟨S50000x133, x⟩, ⟨S50000x128, vm⟩] concatenates_S50000x133_S50000x128_S50000x261_d1) W3)
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

end Cert.Proof.R

end
-- ==== Proof.RefSide.lean ====
/-
  The reference program's two results as the same function of the arguments that the kernel program computes.
  The reference's run gives each result as one composed term of host operations.  Its shared parts are the kernel
  program's shared parts; its three dense layers — join, one product with the stacked weights, maximum with a zero
  array — are the layers read at an entry, because a sum over the joined axis splits into the sums over its two parts.
-/
import proofs.«137759_j73443940762169_1_alg».proof.Proof.Gen.ReferenceIdeal.Run
import proofs.«137759_j73443940762169_1_alg».proof.Proof.ChainsR
import proofs.«137759_j73443940762169_1_alg».proof.Proof.ChainsK
import Idealize.ShloMosaic.Lib.Pipeline.Value

set_option maxRecDepth 16384

noncomputable section

namespace Cert.Proof.RefSide

open Cert.ReferenceIdeal Cert.ReferenceIdeal.Gen Idealize.ShloMosaic Idealize.ShloMosaic.TcCoe Idealize.SL.Sem
open Idealize.ShloMosaic.ValueIdx Cert.Proof.Entry Cert.Lib.DotRowsCols
variable (m : (ℓ : Loc nD τ sig) → Buf (Elt Ideal) ℓ)

/-- The reference's node attributes over its own layers. -/
def nodeAttrR (c : Dev nD) : R.F32 S50000x128 :=
  R.layerN (m ((c : Thread nD τ).loc main_arg0))
    (R.agg (R.layerU (R.layer0 (m ((c : Thread nD τ).loc main_arg0)) (m ((c : Thread nD τ).loc main_arg1)) (m ((c : Thread nD τ).loc main_arg3)) (m ((c : Thread nD τ).loc main_arg5)))
      (R.msg (R.layerU (R.layer0 (m ((c : Thread nD τ).loc main_arg0)) (m ((c : Thread nD τ).loc main_arg1)) (m ((c : Thread nD τ).loc main_arg3)) (m ((c : Thread nD τ).loc main_arg5)))
        (R.msg (R.layer0 (m ((c : Thread nD τ).loc main_arg0)) (m ((c : Thread nD τ).loc main_arg1)) (m ((c : Thread nD τ).loc main_arg3)) (m ((c : Thread nD τ).loc main_arg5))) (m ((c : Thread nD τ).loc main_arg1)) (m ((c : Thread nD τ).loc main_arg2))) (m ((c : Thread nD τ).loc main_arg6))) (m ((c : Thread nD τ).loc main_arg1)) (m ((c : Thread nD τ).loc main_arg2))) (m ((c : Thread nD τ).loc main_arg6))) (m ((c : Thread nD τ).loc main_arg1)))
    (m ((c : Thread nD τ).loc main_arg7)) (m ((c : Thread nD τ).loc main_arg8))

/-! ## The shared parts are the kernel program's -/

theorem xSrc_eq (x : R.F32 S50000x133) (ei : R.I32 S2x800000) : R.xSrc x ei = K.xSrc x ei := rfl
theorem agg_eq (h : R.F32 S800000x128) (ei : R.I32 S2x800000) : R.agg h ei = K.agg h ei := rfl
theorem msg_eq (h : R.F32 S800000x128) (ei : R.I32 S2x800000) (rev : R.I32 S800000) : R.msg h ei rev = K.msg h ei rev := rfl
theorem pooledR_eq (na : R.F32 S50000x128) (batch : R.I32 S50000) : R.pooled na batch = K.pooled na batch := rfl
theorem predR_eq (p : R.F32 S512x128) (M1w : R.F32 S128x128) (M1b : R.F32 S128) (M2w : R.F32 S128x1) (M2b : R.F32 S1) :
    R.pred p M1w M1b M2w M2b = K.pred p M1w M1b M2w M2b := rfl

/-! ## The run's two results, refolded into the reference's stages -/

set_option maxHeartbeats 1600000 in
/-- The run's second result, refolded into the reference's stages. -/
theorem res83_refold (c : Dev nD) :
    Cert.ReferenceIdeal.Value.res_main_v83 (F := Ideal) m c = R.pooled (nodeAttrR m c) (m ((c : Thread nD τ).loc main_arg4)) := by
  unfold Cert.ReferenceIdeal.Value.res_main_v83 nodeAttrR R.pooled R.layerN R.agg R.layerU R.msg R.layer0 R.xSrc R.agg R.nodeCol R.edgeCol R.col R.src R.dst
  rfl

set_option maxHeartbeats 1600000 in
/-- The run's first result, refolded into the reference's stages. -/
theorem res92_refold (c : Dev nD) :
    Cert.ReferenceIdeal.Value.res_main_v92 (F := Ideal) m c
      = R.pred (R.pooled (nodeAttrR m c) (m ((c : Thread nD τ).loc main_arg4))) (m ((c : Thread nD τ).loc main_arg9)) (m ((c : Thread nD τ).loc main_arg10)) (m ((c : Thread nD τ).loc main_arg11)) (m ((c : Thread nD τ).loc main_arg12)) := by
  unfold Cert.ReferenceIdeal.Value.res_main_v92 nodeAttrR R.pred R.pooled R.layerN R.agg R.layerU R.msg R.layer0 R.xSrc R.agg R.nodeCol R.edgeCol R.col R.src R.dst
  rfl

/-! ## The reference's layers are the layers read at an entry -/

/-- A zero array read at an entry is the float zero. -/
theorem zero_eq {s : Shape} (h : S_.BroadcastsInDim s (![] : Fin 0 → Fin s.rank)) (j : s.Idx) :
    broadcastInDim s ![] h (constant (F := Ideal) S_ .f32 0x00000000#32) j = zeroW :=
  broadcastInDim_apply _ h _ j (fun a => a.elim0) (fun a => a.elim0)

/-- A block of rows of a stacked weight array, read at an entry. -/
theorem rows_apply {r r' cc : Nat} (o : Nat) (W : Mat r cc) (h : (⟨2, ![r, cc]⟩ : Shape).Slices ![o, 0] ⟨2, ![r', cc]⟩)
    (q : Fin r') (v : Fin cc) (k : Fin r) (hk : k.val = o + q.val) :
    extractStridedSlice ⟨2, ![r', cc]⟩ ![o, 0] W h (ix2 q v) = W (ix2 k v) :=
  extractStridedSlice_apply _ W h (ix2 q v) (ix2 k v) (fun a => match a with
    | ⟨0, _⟩ => hk
    | ⟨1, _⟩ => (Nat.zero_add _).symm)

theorem layer0_eq (x : R.F32 S50000x133) (ei : R.I32 S2x800000) (ea : R.F32 S800000x14) (W1 : R.F32 S147x128) :
    R.layer0 x ei ea W1 = K.h0 x ei ea W1 := by
  unfold R.layer0 K.h0
  exact host_edgeInit (n := 800000) (a := 133) (b := 14) (K := 147) (c := 128) rfl
    dot_S800000x147_S147x128_S800000x128_1_0_0_1_n_n ⟨rfl, rfl, rfl, rfl, rfl, rfl⟩
    concatenates_S800000x133_S800000x14_S800000x147_d1 (R.xSrc x ei) ea W1 (K.w1x W1) (K.w1e W1)
    (fun q => ⟨q.val, by omega⟩) (fun q => ⟨133 + q.val, by omega⟩) (fun _ => rfl) (fun _ => rfl)
    (fun q v => rows_apply 0 W1 _ q v _ (Nat.zero_add _).symm)
    (fun q v => rows_apply 133 W1 _ q v _ rfl)
    _ (zero_eq bcast_S_S800000x128)

theorem layerU_eq (h mm : R.F32 S800000x128) (W2 : R.F32 S128x128) :
    R.layerU h mm W2 = edgeUpd (n := 800000) (K := 128) (c := 128) h mm W2 := by
  unfold R.layerU
  exact host_edgeUpd dot_S800000x128_S128x128_S800000x128_1_0_0_1_n_n ⟨rfl, rfl, rfl, rfl, rfl, rfl⟩ h mm W2 _ (zero_eq bcast_S_S800000x128)

/-- The bias repeated down the rows is the bias row read at the entry's column. -/
theorem bias_eq (b : R.F32 S128) (j : S50000x128.Idx) :
    broadcastInDim S50000x128 ![0, 1] bcast_S1x128_S50000x128_0_1 (broadcastInDim S1x128 ![1] bcast_S128_S1x128_1 b) j
      = K.biasRow b (ix2 0 (j 1)) := by
  refine (broadcastInDim_apply _ bcast_S1x128_S50000x128_0_1 _ j (ix2 0 (j 1)) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])).trans ?_
  refine (broadcastInDim_apply _ bcast_S128_S1x128_1 b (ix2 0 (j 1)) (ix1 (j 1)) (fun a => match a with
    | ⟨0, _⟩ => by show (j 1).val = if (128 : Nat) = 1 then 0 else (j 1).val; rw [if_neg (by decide)])).trans ?_
  unfold K.biasRow
  have h := shapeCast_addUnit_apply ![128] b Cert.KernelIdeal.Gen.shapeCasts_S128_S1x128 (ix2 0 (j 1))
  have e : (ix1 (j 1) : S128.Idx) = fun (a : Fin 1) => (ix2 (0 : Fin 1) (j 1) : S1x128.Idx) a.succ := by
    funext a; match a with | ⟨0, _⟩ => rfl
  exact (congrArg b e).trans h.symm

theorem layerN_eq (x : R.F32 S50000x133) (vm : R.F32 S50000x128) (W3 : R.F32 S261x128) (b : R.F32 S128) :
    R.layerN x vm W3 b = nodeUpd (n := 50000) (a := 133) (b := 128) (c := 128) x vm (K.w3x W3) (K.w3v W3) (K.biasRow b) := by
  unfold R.layerN
  exact host_nodeUpd (n := 50000) (a := 133) (b := 128) (K := 261) (c := 128) rfl
    dot_S50000x261_S261x128_S50000x128_1_0_0_1_n_n ⟨rfl, rfl, rfl, rfl, rfl, rfl⟩
    concatenates_S50000x133_S50000x128_S50000x261_d1 x vm W3 (K.w3x W3) (K.w3v W3)
    (fun q => ⟨q.val, by omega⟩) (fun q => ⟨133 + q.val, by omega⟩) (fun _ => rfl) (fun _ => rfl)
    (fun q v => rows_apply 0 W3 _ q v _ (Nat.zero_add _).symm)
    (fun q v => rows_apply 133 W3 _ q v _ rfl)
    (K.biasRow b) _ (bias_eq b)
    _ (zero_eq bcast_S_S50000x128)

/-! ## The node attributes and the two results -/

/-- The reference's node attributes are the kernel program's. -/
theorem nodeAttr_eq (c : Dev nD) :
    nodeAttrR m c = K.nodeAttr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) := by
  unfold nodeAttrR K.nodeAttr K.h2 K.h1
  rw [layerN_eq, layer0_eq, layerU_eq, layerU_eq, msg_eq, msg_eq, agg_eq]

theorem pooled_eq (c : Dev nD) :
    Cert.ReferenceIdeal.Value.res_main_v83 (F := Ideal) m c
      = K.pooled (K.nodeAttr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) (m ((c : Thread nD τ).loc main_arg4)) :=
  (res83_refold m c).trans ((congrArg (fun na => R.pooled na (m ((c : Thread nD τ).loc main_arg4))) (nodeAttr_eq m c)).trans (pooledR_eq _ _))

theorem pred_eq (c : Dev nD) :
    Cert.ReferenceIdeal.Value.res_main_v92 (F := Ideal) m c
      = K.pred (K.pooled (K.nodeAttr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) (m ((c : Thread nD τ).loc main_arg4)))
          (m ((c : Thread nD τ).loc main_arg9)) (m ((c : Thread nD τ).loc main_arg10)) (m ((c : Thread nD τ).loc main_arg11)) (m ((c : Thread nD τ).loc main_arg12)) :=
  (res92_refold m c).trans ((congrArg (fun na => R.pred (R.pooled na (m ((c : Thread nD τ).loc main_arg4))) (m ((c : Thread nD τ).loc main_arg9)) (m ((c : Thread nD τ).loc main_arg10)) (m ((c : Thread nD τ).loc main_arg11)) (m ((c : Thread nD τ).loc main_arg12))) (nodeAttr_eq m c)).trans
    ((congrArg (fun p => R.pred p (m ((c : Thread nD τ).loc main_arg9)) (m ((c : Thread nD τ).loc main_arg10)) (m ((c : Thread nD τ).loc main_arg11)) (m ((c : Thread nD τ).loc main_arg12))) (pooledR_eq _ _)).trans (predR_eq _ _ _ _ _)))

end Cert.Proof.RefSide

end
-- ==== Proof.lean ====
/-
  A directed message-passing encoder over a graph of 50000 nodes and 800000 directed edges, and a readout, against its
  plain reference, over the extended reals.

  Both programs compute: the node features gathered at each edge's source; initial edge messages
  h0 = max (x_src·W1[:133] + e·W1[133:]) 0; twice, the directed message m = (sum of h at target nodes)[source] − h[reverse edge]
  and the update h = max (h0 + m·W2) 0; the messages summed at target nodes; node attributes
  max ((x·W3[:133] + v·W3[133:]) + b) 0; the per-graph mean of the node attributes and a two-layer readout of it.
  The kernel program forms the three dense layers in four launches, a block of rows per grid point, as two products
  added; the reference joins the two row operands along their columns and multiplies the join once by the whole weight
  matrix.  The two agree entry by entry because a sum over the 133 + 14 (or 133 + 128) positions of the joined axis is the
  sum over the first part plus the sum over the second: a regrouping of one finite sum, valid for every extended real,
  so the finiteness of the inputs is never used.  Everything else — gathers, sums at targets, the mean, the readout —
  is the same host operation in both programs and is carried through unopened.

  The kernel program's two results are read off its run boundary by boundary (each launch's output array is the layer
  of the arrays the launch found, since an entry of a layer depends on one row of the row operands); the reference's
  are its run's composed term refolded into the same stages.
-/
import proofs.«137759_j73443940762169_1_alg».proof.Defs
import proofs.«137759_j73443940762169_1_alg».proof.Proof.Gen.Kernel
import proofs.«137759_j73443940762169_1_alg».proof.Proof.Gen.Kernel.Skeleton
import proofs.«137759_j73443940762169_1_alg».proof.Proof.Gen.Kernel.Launch
import proofs.«137759_j73443940762169_1_alg».proof.Proof.Gen.Kernel.Points
import proofs.«137759_j73443940762169_1_alg».proof.Proof.Gen.Kernel.Frame
import proofs.«137759_j73443940762169_1_alg».proof.Proof.Gen.KernelIdeal
import proofs.«137759_j73443940762169_1_alg».proof.Proof.Gen.KernelIdeal.Skeleton
import proofs.«137759_j73443940762169_1_alg».proof.Proof.Gen.KernelIdeal.Launch
import proofs.«137759_j73443940762169_1_alg».proof.Proof.Gen.KernelIdeal.Points
import proofs.«137759_j73443940762169_1_alg».proof.Proof.Gen.KernelIdeal.Frame
import proofs.«137759_j73443940762169_1_alg».proof.Proof.Gen.ReferenceIdeal
import proofs.«137759_j73443940762169_1_alg».proof.Proof.Gen.ReferenceIdeal.Run
import proofs.«137759_j73443940762169_1_alg».proof.Proof.Gen.Pre_finite_inputs
import proofs.«137759_j73443940762169_1_alg».proof.Proof.RunValues
import proofs.«137759_j73443940762169_1_alg».proof.Proof.FoldK
import proofs.«137759_j73443940762169_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs and leaves its arguments alone: its generated frame. -/
theorem frame_kernel : Cert.frame_Kernel := fun m ρ _ => Cert.Kernel.Gen.frame m ρ

/-- So does the kernel program read over the exact reals. -/
theorem frame_kernelIdeal : Cert.frame_KernelIdeal := fun m ρ _ => Cert.KernelIdeal.Gen.frame m ρ

/-- The reference has no launch: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Over the exact reals both programs end with the readout and the per-graph means of the same node attributes: the
    kernel program's run read boundary by boundary, the reference's composed term refolded, the arguments agreeing. -/
theorem algebraic : Cert.algebraic_KernelIdeal_ReferenceIdeal := by
  intro m ρ m' ρ' _ hagree
  refine ⟨fun c => (K.pred (K.pooled (K.nodeAttr (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8))) (m ((c : Thread Cert.KernelIdeal.nD Cert.KernelIdeal.τ).loc Cert.KernelIdeal.main_arg4))) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12))), fun c => (K.pooled (K.nodeAttr (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8))) (m ((c : Thread Cert.KernelIdeal.nD Cert.KernelIdeal.τ).loc Cert.KernelIdeal.main_arg4))), ?_, ?_⟩
  · exact (θ_run Cert.KernelIdeal.defs _ _).mono
      (fun _ h c => ⟨(h c).1.trans (Cert.Proof.FoldK.pred_eq m ρ c), (h c).2.1.trans (Cert.Proof.FoldK.pooled_eq m ρ c), (h c).2.2⟩)
      (Cert.KernelIdeal.RunValues.run_values (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨a0, a1, a2, a3, a4, a5, a6, a7, a8, a9, a10, a11, a12⟩ := hagree c
      rw [Cert.Proof.RefSide.pred_eq m' c, a0, a1, a2, a3, a4, a5, a6, a7, a8, a9, a10, a11, a12]
    · obtain ⟨a0, a1, a2, a3, a4, a5, a6, a7, a8, -, -, -, -⟩ := hagree c
      rw [Cert.Proof.RefSide.pooled_eq m' c, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
